-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S4823x1 : Shape := ⟨2, ![4823, 1]⟩
abbrev S4823x128 : Shape := ⟨2, ![4823, 128]⟩
abbrev S1x13 : Shape := ⟨2, ![1, 13]⟩
abbrev S256x3328 : Shape := ⟨2, ![256, 3328]⟩
abbrev S256x256 : Shape := ⟨2, ![256, 256]⟩
abbrev S1x256 : Shape := ⟨2, ![1, 256]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S4823x1 : S_.BroadcastsInDim S4823x1 (![] : Fin 0 → Fin S4823x1.rank)
  reducesTo_S4823x1_S_d0_1 : S4823x1.ReducesTo [0, 1] S_
  bcast_S_S4823x128 : S_.BroadcastsInDim S4823x128 (![] : Fin 0 → Fin S4823x128.rank)
  reducesTo_S4823x128_S_d0_1 : S4823x128.ReducesTo [0, 1] S_
  bcast_S_S1x13 : S_.BroadcastsInDim S1x13 (![] : Fin 0 → Fin S1x13.rank)
  reducesTo_S1x13_S_d0_1 : S1x13.ReducesTo [0, 1] S_
  bcast_S_S256x3328 : S_.BroadcastsInDim S256x3328 (![] : Fin 0 → Fin S256x3328.rank)
  reducesTo_S256x3328_S_d0_1 : S256x3328.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S16384x26 : S_.BroadcastsInDim S16384x26 (![] : Fin 0 → Fin S16384x26.rank)
  reducesTo_S16384x26_S_d0_1 : S16384x26.ReducesTo [0, 1] S_

variable [Facts]

def fn_part2 {F : FTy → Type} [FloatOps F] (main_arg1 : IVec S16384x26 32) (main_v33 : IVec S_ 1) : IVec S_ 1 :=
  let main_c_12 : IVec S_ 32 := constantI S_ 32 0#32
  let main_v34 : IVec S16384x26 32 := broadcastInDim S16384x26 ![] bcast_S_S16384x26 main_c_12
  let main_v35 : IVec S16384x26 1 := cmpi .sge main_arg1 main_v34
  let main_c_13 : IVec S_ 1 := constantI S_ 1 1#1
  let main_v36 : IVec S_ 1 := (fun x v => Host.reduce IntOp.andi x v reducesTo_S16384x26_S_d0_1 h_S_) main_v35 main_c_13
  let main_v37 : IVec S_ 1 := andi main_v33 main_v36
  let main_c_14 : IVec S_ 32 := constantI S_ 32 4823#32
  let main_v38 : IVec S16384x26 32 := broadcastInDim S16384x26 ![] bcast_S_S16384x26 main_c_14
  let main_v39 : IVec S16384x26 1 := cmpi .slt main_arg1 main_v38
  let main_c_15 : IVec S_ 1 := constantI S_ 1 1#1
  let main_v40 : IVec S_ 1 := (fun x v => Host.reduce IntOp.andi x v reducesTo_S16384x26_S_d0_1 h_S_) main_v39 main_c_15
  let main_v41 : IVec S_ 1 := andi main_v37 main_v40
  main_v41

def fn_part1 {F : FTy → Type} [FloatOps F] (main_arg1 : IVec S16384x26 32) (main_arg5 : FVec F S256x3328 .f32) (main_arg6 : FVec F S256x256 .f32) (main_arg7 : FVec F S1x256 .f32) (main_v13 : IVec S_ 1) (main_v16 : IVec S1x13 1) : IVec S_ 1 :=
  let main_c_5 : IVec S_ 1 := constantI S_ 1 1#1
  let main_v17 : IVec S_ 1 := (fun x v => Host.reduce IntOp.andi x v reducesTo_S1x13_S_d0_1 h_S_) main_v16 main_c_5
  let main_v18 : IVec S_ 1 := andi main_v13 main_v17
  let main_v19 : FVec F S256x3328 .f32 := Host.absf main_arg5
  let main_cst_6 : FVec F S_ .f32 := constant S_ .f32 0x7F800000#32
  let main_v20 : FVec F S256x3328 .f32 := broadcastInDim S256x3328 ![] bcast_S_S256x3328 main_cst_6
  let main_v21 : IVec S256x3328 1 := cmpf .olt main_v19 main_v20
  let main_c_7 : IVec S_ 1 := constantI S_ 1 1#1
  let main_v22 : IVec S_ 1 := (fun x v => Host.reduce IntOp.andi x v reducesTo_S256x3328_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S1x256 .f32 := Host.absf main_arg7
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg1 main_v33

def fn {F : FTy → Type} [FloatOps F] (main_arg0 : FVec F S16384x13 .f32) (main_arg1 : IVec S16384x26 32) (main_arg2 : FVec F S4823x1 .f32) (main_arg3 : FVec F S4823x128 .f32) (main_arg4 : FVec F S1x13 .f32) (main_arg5 : FVec F S256x3328 .f32) (main_arg6 : FVec F S256x256 .f32) (main_arg7 : FVec F S1x256 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S4823x1 .f32 := Host.absf main_arg2
  let main_cst_0 : FVec F S_ .f32 := constant S_ .f32 0x7F800000#32
  let main_v5 : FVec F S4823x1 .f32 := broadcastInDim S4823x1 ![] bcast_S_S4823x1 main_cst_0
  let main_v6 : IVec S4823x1 1 := cmpf .olt main_v4 main_v5
  let main_c_1 : IVec S_ 1 := constantI S_ 1 1#1
  let main_v7 : IVec S_ 1 := (fun x v => Host.reduce IntOp.andi x v reducesTo_S4823x1_S_d0_1 h_S_) main_v6 main_c_1
  let main_v8 : IVec S_ 1 := andi main_v3 main_v7
  let main_v9 : FVec F S4823x128 .f32 := Host.absf main_arg3
  let main_cst_2 : FVec F S_ .f32 := constant S_ .f32 0x7F800000#32
  let main_v10 : FVec F S4823x128 .f32 := broadcastInDim S4823x128 ![] bcast_S_S4823x128 main_cst_2
  let main_v11 : IVec S4823x128 1 := cmpf .olt main_v9 main_v10
  let main_c_3 : IVec S_ 1 := constantI S_ 1 1#1
  let main_v12 : IVec S_ 1 := (fun x v => Host.reduce IntOp.andi x v reducesTo_S4823x128_S_d0_1 h_S_) main_v11 main_c_3
  let main_v13 : IVec S_ 1 := andi main_v8 main_v12
  let main_v14 : FVec F S1x13 .f32 := Host.absf main_arg4
  let main_cst_4 : FVec F S_ .f32 := constant S_ .f32 0x7F800000#32
  let main_v15 : FVec F S1x13 .f32 := broadcastInDim S1x13 ![] bcast_S_S1x13 main_cst_4
  let main_v16 : IVec S1x13 1 := cmpf .olt main_v14 main_v15
  fn_part1 (F := F) main_arg1 main_arg5 main_arg6 main_arg7 main_v13 main_v16
-- ==== Kernel.lean ====
abbrev S16384x13 : Shape := ⟨2, ![16384, 13]⟩
abbrev S16384x26 : Shape := ⟨2, ![16384, 26]⟩
abbrev S4823x1 : Shape := ⟨2, ![4823, 1]⟩
abbrev S4823x128 : Shape := ⟨2, ![4823, 128]⟩
abbrev S1x13 : Shape := ⟨2, ![1, 13]⟩
abbrev S256x3328 : Shape := ⟨2, ![256, 3328]⟩
abbrev S256x256 : Shape := ⟨2, ![256, 256]⟩
abbrev S1x256 : Shape := ⟨2, ![1, 256]⟩
abbrev S4823x129 : Shape := ⟨2, ![4823, 129]⟩
abbrev S13x1 : Shape := ⟨2, ![13, 1]⟩
abbrev S3328x256 : Shape := ⟨2, ![3328, 256]⟩
abbrev S256x1 : Shape := ⟨2, ![256, 1]⟩
abbrev S16384x1 : Shape := ⟨2, ![16384, 1]⟩
abbrev S512x13 : Shape := ⟨2, ![512, 13]⟩
abbrev S512x26 : Shape := ⟨2, ![512, 26]⟩
abbrev S512x1 : Shape := ⟨2, ![512, 1]⟩
abbrev S512x3328 : Shape := ⟨2, ![512, 3328]⟩
abbrev S512x129 : Shape := ⟨2, ![512, 129]⟩
abbrev S512x4823 : Shape := ⟨2, ![512, 4823]⟩
abbrev S512x128 : Shape := ⟨2, ![512, 128]⟩
abbrev S512 : Shape := ⟨1, ![512]⟩
abbrev S512x256 : Shape := ⟨2, ![512, 256]⟩

abbrev nBuf : Space → Nat
  | .hbm => 14
  | .vmem => 14
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S4823x1, .f32⟩
  | .hbm, ⟨3, _⟩ => ⟨S4823x128, .f32⟩
  | .hbm, ⟨4, _⟩ => ⟨S1x13, .f32⟩
  | .hbm, ⟨5, _⟩ => ⟨S256x3328, .f32⟩
  | .hbm, ⟨6, _⟩ => ⟨S256x256, .f32⟩
  | .hbm, ⟨7, _⟩ => ⟨S1x256, .f32⟩
  | .hbm, ⟨8, _⟩ => ⟨S4823x129, .f32⟩
  | .hbm, ⟨9, _⟩ => ⟨S13x1, .f32⟩
  | .hbm, ⟨10, _⟩ => ⟨S3328x256, .f32⟩
  | .hbm, ⟨11, _⟩ => ⟨S256x256, .f32⟩
  | .hbm, ⟨12, _⟩ => ⟨S256x1, .f32⟩
  | .hbm, ⟨13, _⟩ => ⟨S16384x1, .f32⟩
  | .local _ .vmem, ⟨0, _⟩ => ⟨S512x13, .f32⟩
  | .local _ .vmem, ⟨1, _⟩ => ⟨S512x13, .f32⟩
  | .local _ .vmem, ⟨2, _⟩ => ⟨S512x26, .i32⟩
  | .local _ .vmem, ⟨3, _⟩ => ⟨S512x26, .i32⟩
  | .local _ .vmem, ⟨4, _⟩ => ⟨S4823x129, .f32⟩
  | .local _ .vmem, ⟨5, _⟩ => ⟨S13x1, .f32⟩
  | .local _ .vmem, ⟨6, _⟩ => ⟨S3328x256, .f32⟩
  | .local _ .vmem, ⟨7, _⟩ => ⟨S256x256, .f32⟩
  | .local _ .vmem, ⟨8, _⟩ => ⟨S256x1, .f32⟩
  | .local _ .vmem, ⟨9, _⟩ => ⟨S512x1, .f32⟩
  | .local _ .vmem, ⟨10, _⟩ => ⟨S512x1, .f32⟩
  | .local _ .vmem, ⟨11, _⟩ => ⟨S512x3328, .bf16⟩
  | .local _ .vmem, ⟨12, _⟩ => ⟨S512x129, .f32⟩
  | .local _ .vmem, ⟨13, _⟩ => ⟨S512x129, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4823x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3328x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S4823x128_S4823x1_S4823x129_d1 : Shape.Concatenates [S4823x128, S4823x1] S4823x129 1
  transposes_S1x13_S13x1_1_0 : S1x13.Transposes [1, 0] S13x1
  transposes_S256x3328_S3328x256_1_0 : S256x3328.Transposes [1, 0] S3328x256
  transposes_S256x256_S256x256_1_0 : S256x256.Transposes [1, 0] S256x256
  transposes_S1x256_S256x1_1_0 : S1x256.Transposes [1, 0] S256x1
  inb_S512x129_S512x129_0_0 : ∀ a, (![0, 0] : Fin 2 → Nat) a + S512x129.size a ≤ S512x129.size a
  h_S512x129 : 0 < S512x129.numel
  shapeCasts_S512x129_S512x129 : S512x129.ShapeCasts S512x129
  iota_S512x4823_d1_w32 : S512x4823.Iotas .tc 32 [1]
  inb_S4823x129_S4823x129_0_0 : ∀ a, (![0, 0] : Fin 2 → Nat) a + S4823x129.size a ≤ S4823x129.size a
  h_S4823x129 : 0 < S4823x129.numel
  shapeCasts_S4823x129_S4823x129 : S4823x129.ShapeCasts S4823x129
  bitsLt_bf16_f32 : FTy.bits .bf16 < FTy.bits .f32
  inb_S512x26_S512x1_0_0 : ∀ a, (![0, 0] : Fin 2 → Nat) a + S512x1.size a ≤ S512x26.size a
  h_S512x1 : 0 < S512x1.numel
  broadcasts_S512x1_S512x4823 : S512x1.Broadcasts S512x4823
  natLt_1_32 : 1 < 32
  slices_S512x129_o0_0_S512x128 : S512x129.Slices ![0, 0] S512x128
  inb_S512x3328_S512x128_0_0 : ∀ a, (![0, 0] : Fin 2 → Nat) a + S512x128.size a ≤ S512x3328.size a
  h_S512x128 : 0 < S512x128.numel
  shapeCasts_S512x128_S512x128 : S512x128.ShapeCasts S512x128
  packedbf16_S512x3328_S512x128_0_0 : (Rect.unit (s := S512x3328) ![0, 0] S512x128.size inb_S512x3328_S512x128_0_0).PackedRows (EltTy.packing .bf16)
  inb_S512x26_S512x1_0_1 : ∀ a, (![0, 1] : Fin 2 → Nat) a + S512x1.size a ≤ S512x26.size a
  inb_S512x3328_S512x128_0_128 : ∀ a, (![0, 128] : Fin 2 → Nat) a + S512x128.size a ≤ S512x3328.size a
  packedbf16_S512x3328_S512x128_0_128 : (Rect.unit (s := S512x3328) ![0, 128] S512x128.size inb_S512x3328_S512x128_0_128).PackedRows (EltTy.packing .bf16)
  inb_S512x26_S512x1_0_2 : ∀ a, (![0, 2] : Fin 2 → Nat) a + S512x1.size a ≤ S512x26.size a
  inb_S512x3328_S512x128_0_256 : ∀ a, (![0, 256] : Fin 2 → Nat) a + S512x128.size a ≤ S512x3328.size a
  packedbf16_S512x3328_S512x128_0_256 : (Rect.unit (s := S512x3328) ![0, 256] S512x128.size inb_S512x3328_S512x128_0_256).PackedRows (EltTy.packing .bf16)
  inb_S512x26_S512x1_0_3 : ∀ a, (![0, 3] : Fin 2 → Nat) a + S512x1.size a ≤ S512x26.size a
  inb_S512x3328_S512x128_0_384 : ∀ a, (![0, 384] : Fin 2 → Nat) a + S512x128.size a ≤ S512x3328.size a
  packedbf16_S512x3328_S512x128_0_384 : (Rect.unit (s := S512x3328) ![0, 384] S512x128.size inb_S512x3328_S512x128_0_384).PackedRows (EltTy.packing .bf16)
  inb_S512x26_S512x1_0_4 : ∀ a, (![0, 4] : Fin 2 → Nat) a + S512x1.size a ≤ S512x26.size a
  inb_S512x3328_S512x128_0_512 : ∀ a, (![0, 512] : Fin 2 → Nat) a + S512x128.size a ≤ S512x3328.size a
  packedbf16_S512x3328_S512x128_0_512 : (Rect.unit (s := S512x3328) ![0, 512] S512x128.size inb_S512x3328_S512x128_0_512).PackedRows (EltTy.packing .bf16)
  inb_S512x26_S512x1_0_5 : ∀ a, (![0, 5] : Fin 2 → Nat) a + S512x1.size a ≤ S512x26.size a
  inb_S512x3328_S512x128_0_640 : ∀ a, (![0, 640] : Fin 2 → Nat) a + S512x128.size a ≤ S512x3328.size a
  packedbf16_S512x3328_S512x128_0_640 : (Rect.unit (s := S512x3328) ![0, 640] S512x128.size inb_S512x3328_S512x128_0_640).PackedRows (EltTy.packing .bf16)
  inb_S512x26_S512x1_0_6 : ∀ a, (![0, 6] : Fin 2 → Nat) a + S512x1.size a ≤ S512x26.size a
  inb_S512x3328_S512x128_0_768 : ∀ a, (![0, 768] : Fin 2 → Nat) a + S512x128.size a ≤ S512x3328.size a
  packedbf16_S512x3328_S512x128_0_768 : (Rect.unit (s := S512x3328) ![0, 768] S512x128.size inb_S512x3328_S512x128_0_768).PackedRows (EltTy.packing .bf16)
  inb_S512x26_S512x1_0_7 : ∀ a, (![0, 7] : Fin 2 → Nat) a + S512x1.size a ≤ S512x26.size a
  inb_S512x3328_S512x128_0_896 : ∀ a, (![0, 896] : Fin 2 → Nat) a + S512x128.size a ≤ S512x3328.size a
  packedbf16_S512x3328_S512x128_0_896 : (Rect.unit (s := S512x3328) ![0, 896] S512x128.size inb_S512x3328_S512x128_0_896).PackedRows (EltTy.packing .bf16)
  inb_S512x26_S512x1_0_8 : ∀ a, (![0, 8] : Fin 2 → Nat) a + S512x1.size a ≤ S512x26.size a
  inb_S512x3328_S512x128_0_1024 : ∀ a, (![0, 1024] : Fin 2 → Nat) a + S512x128.size a ≤ S512x3328.size a
  packedbf16_S512x3328_S512x128_0_1024 : (Rect.unit (s := S512x3328) ![0, 1024] S512x128.size inb_S512x3328_S512x128_0_1024).PackedRows (EltTy.packing .bf16)
  inb_S512x26_S512x1_0_9 : ∀ a, (![0, 9] : Fin 2 → Nat) a + S512x1.size a ≤ S512x26.size a
  inb_S512x3328_S512x128_0_1152 : ∀ a, (![0, 1152] : Fin 2 → Nat) a + S512x128.size a ≤ S512x3328.size a
  packedbf16_S512x3328_S512x128_0_1152 : (Rect.unit (s := S512x3328) ![0, 1152] S512x128.size inb_S512x3328_S512x128_0_1152).PackedRows (EltTy.packing .bf16)
  inb_S512x26_S512x1_0_10 : ∀ a, (![0, 10] : Fin 2 → Nat) a + S512x1.size a ≤ S512x26.size a
  inb_S512x3328_S512x128_0_1280 : ∀ a, (![0, 1280] : Fin 2 → Nat) a + S512x128.size a ≤ S512x3328.size a
  packedbf16_S512x3328_S512x128_0_1280 : (Rect.unit (s := S512x3328) ![0, 1280] S512x128.size inb_S512x3328_S512x128_0_1280).PackedRows (EltTy.packing .bf16)
  inb_S512x26_S512x1_0_11 : ∀ a, (![0, 11] : Fin 2 → Nat) a + S512x1.size a ≤ S512x26.size a
  inb_S512x3328_S512x128_0_1408 : ∀ a, (![0, 1408] : Fin 2 → Nat) a + S512x128.size a ≤ S512x3328.size a
  packedbf16_S512x3328_S512x128_0_1408 : (Rect.unit (s := S512x3328) ![0, 1408] S512x128.size inb_S512x3328_S512x128_0_1408).PackedRows (EltTy.packing .bf16)
  inb_S512x26_S512x1_0_12 : ∀ a, (![0, 12] : Fin 2 → Nat) a + S512x1.size a ≤ S512x26.size a
  inb_S512x3328_S512x128_0_1536 : ∀ a, (![0, 1536] : Fin 2 → Nat) a + S512x128.size a ≤ S512x3328.size a
  packedbf16_S512x3328_S512x128_0_1536 : (Rect.unit (s := S512x3328) ![0, 1536] S512x128.size inb_S512x3328_S512x128_0_1536).PackedRows (EltTy.packing .bf16)
  inb_S512x26_S512x1_0_13 : ∀ a, (![0, 13] : Fin 2 → Nat) a + S512x1.size a ≤ S512x26.size a
  inb_S512x3328_S512x128_0_1664 : ∀ a, (![0, 1664] : Fin 2 → Nat) a + S512x128.size a ≤ S512x3328.size a
  packedbf16_S512x3328_S512x128_0_1664 : (Rect.unit (s := S512x3328) ![0, 1664] S512x128.size inb_S512x3328_S512x128_0_1664).PackedRows (EltTy.packing .bf16)
  inb_S512x26_S512x1_0_14 : ∀ a, (![0, 14] : Fin 2 → Nat) a + S512x1.size a ≤ S512x26.size a
  inb_S512x3328_S512x128_0_1792 : ∀ a, (![0, 1792] : Fin 2 → Nat) a + S512x128.size a ≤ S512x3328.size a
  packedbf16_S512x3328_S512x128_0_1792 : (Rect.unit (s := S512x3328) ![0, 1792] S512x128.size inb_S512x3328_S512x128_0_1792).PackedRows (EltTy.packing .bf16)
  inb_S512x26_S512x1_0_15 : ∀ a, (![0, 15] : Fin 2 → Nat) a + S512x1.size a ≤ S512x26.size a
  inb_S512x3328_S512x128_0_1920 : ∀ a, (![0, 1920] : Fin 2 → Nat) a + S512x128.size a ≤ S512x3328.size a
  packedbf16_S512x3328_S512x128_0_1920 : (Rect.unit (s := S512x3328) ![0, 1920] S512x128.size inb_S512x3328_S512x128_0_1920).PackedRows (EltTy.packing .bf16)
  inb_S512x26_S512x1_0_16 : ∀ a, (![0, 16] : Fin 2 → Nat) a + S512x1.size a ≤ S512x26.size a
  inb_S512x3328_S512x128_0_2048 : ∀ a, (![0, 2048] : Fin 2 → Nat) a + S512x128.size a ≤ S512x3328.size a
  packedbf16_S512x3328_S512x128_0_2048 : (Rect.unit (s := S512x3328) ![0, 2048] S512x128.size inb_S512x3328_S512x128_0_2048).PackedRows (EltTy.packing .bf16)
  inb_S512x26_S512x1_0_17 : ∀ a, (![0, 17] : Fin 2 → Nat) a + S512x1.size a ≤ S512x26.size a
  inb_S512x3328_S512x128_0_2176 : ∀ a, (![0, 2176] : Fin 2 → Nat) a + S512x128.size a ≤ S512x3328.size a
  packedbf16_S512x3328_S512x128_0_2176 : (Rect.unit (s := S512x3328) ![0, 2176] S512x128.size inb_S512x3328_S512x128_0_2176).PackedRows (EltTy.packing .bf16)
  inb_S512x26_S512x1_0_18 : ∀ a, (![0, 18] : Fin 2 → Nat) a + S512x1.size a ≤ S512x26.size a
  inb_S512x3328_S512x128_0_2304 : ∀ a, (![0, 2304] : Fin 2 → Nat) a + S512x128.size a ≤ S512x3328.size a
  packedbf16_S512x3328_S512x128_0_2304 : (Rect.unit (s := S512x3328) ![0, 2304] S512x128.size inb_S512x3328_S512x128_0_2304).PackedRows (EltTy.packing .bf16)
  inb_S512x26_S512x1_0_19 : ∀ a, (![0, 19] : Fin 2 → Nat) a + S512x1.size a ≤ S512x26.size a
  inb_S512x3328_S512x128_0_2432 : ∀ a, (![0, 2432] : Fin 2 → Nat) a + S512x128.size a ≤ S512x3328.size a
  packedbf16_S512x3328_S512x128_0_2432 : (Rect.unit (s := S512x3328) ![0, 2432] S512x128.size inb_S512x3328_S512x128_0_2432).PackedRows (EltTy.packing .bf16)
  inb_S512x26_S512x1_0_20 : ∀ a, (![0, 20] : Fin 2 → Nat) a + S512x1.size a ≤ S512x26.size a
  inb_S512x3328_S512x128_0_2560 : ∀ a, (![0, 2560] : Fin 2 → Nat) a + S512x128.size a ≤ S512x3328.size a
  packedbf16_S512x3328_S512x128_0_2560 : (Rect.unit (s := S512x3328) ![0, 2560] S512x128.size inb_S512x3328_S512x128_0_2560).PackedRows (EltTy.packing .bf16)
  inb_S512x26_S512x1_0_21 : ∀ a, (![0, 21] : Fin 2 → Nat) a + S512x1.size a ≤ S512x26.size a
  inb_S512x3328_S512x128_0_2688 : ∀ a, (![0, 2688] : Fin 2 → Nat) a + S512x128.size a ≤ S512x3328.size a
  packedbf16_S512x3328_S512x128_0_2688 : (Rect.unit (s := S512x3328) ![0, 2688] S512x128.size inb_S512x3328_S512x128_0_2688).PackedRows (EltTy.packing .bf16)
  inb_S512x26_S512x1_0_22 : ∀ a, (![0, 22] : Fin 2 → Nat) a + S512x1.size a ≤ S512x26.size a
  inb_S512x3328_S512x128_0_2816 : ∀ a, (![0, 2816] : Fin 2 → Nat) a + S512x128.size a ≤ S512x3328.size a
  packedbf16_S512x3328_S512x128_0_2816 : (Rect.unit (s := S512x3328) ![0, 2816] S512x128.size inb_S512x3328_S512x128_0_2816).PackedRows (EltTy.packing .bf16)
  inb_S512x26_S512x1_0_23 : ∀ a, (![0, 23] : Fin 2 → Nat) a + S512x1.size a ≤ S512x26.size a
  inb_S512x3328_S512x128_0_2944 : ∀ a, (![0, 2944] : Fin 2 → Nat) a + S512x128.size a ≤ S512x3328.size a
  packedbf16_S512x3328_S512x128_0_2944 : (Rect.unit (s := S512x3328) ![0, 2944] S512x128.size inb_S512x3328_S512x128_0_2944).PackedRows (EltTy.packing .bf16)
  inb_S512x26_S512x1_0_24 : ∀ a, (![0, 24] : Fin 2 → Nat) a + S512x1.size a ≤ S512x26.size a
  inb_S512x3328_S512x128_0_3072 : ∀ a, (![0, 3072] : Fin 2 → Nat) a + S512x128.size a ≤ S512x3328.size a
  packedbf16_S512x3328_S512x128_0_3072 : (Rect.unit (s := S512x3328) ![0, 3072] S512x128.size inb_S512x3328_S512x128_0_3072).PackedRows (EltTy.packing .bf16)
  inb_S512x26_S512x1_0_25 : ∀ a, (![0, 25] : Fin 2 → Nat) a + S512x1.size a ≤ S512x26.size a
  inb_S512x3328_S512x128_0_3200 : ∀ a, (![0, 3200] : Fin 2 → Nat) a + S512x128.size a ≤ S512x3328.size a
  packedbf16_S512x3328_S512x128_0_3200 : (Rect.unit (s := S512x3328) ![0, 3200] S512x128.size inb_S512x3328_S512x128_0_3200).PackedRows (EltTy.packing .bf16)
  inb_S512x129_S512x128_0_0 : ∀ a, (![0, 0] : Fin 2 → Nat) a + S512x128.size a ≤ S512x129.size a
  inb_S512x129_S512x1_0_128 : ∀ a, (![0, 128] : Fin 2 → Nat) a + S512x1.size a ≤ S512x129.size a
  reduces_S512x128_S512 : S512x128.Reduces [1] S512
  shapeCasts_S512_S512x1 : S512.ShapeCasts S512x1
  inb_S512x13_S512x13_0_0 : ∀ a, (![0, 0] : Fin 2 → Nat) a + S512x13.size a ≤ S512x13.size a
  h_S512x13 : 0 < S512x13.numel
  inb_S13x1_S13x1_0_0 : ∀ a, (![0, 0] : Fin 2 → Nat) a + S13x1.size a ≤ S13x1.size a
  h_S13x1 : 0 < S13x1.numel
  shapeCasts_S13x1_S13x1 : S13x1.ShapeCasts S13x1
  inb_S3328x256_S3328x256_0_0 : ∀ a, (![0, 0] : Fin 2 → Nat) a + S3328x256.size a ≤ S3328x256.size a
  h_S3328x256 : 0 < S3328x256.numel
  shapeCasts_S3328x256_S3328x256 : S3328x256.ShapeCasts S3328x256
  inb_S512x3328_S512x3328_0_0 : ∀ a, (![0, 0] : Fin 2 → Nat) a + S512x3328.size a ≤ S512x3328.size a
  h_S512x3328 : 0 < S512x3328.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x1_S512x1_0_0 : ∀ a, (![0, 0] : Fin 2 → Nat) a + S512x1.size a ≤ S512x1.size a
  dot_S512x4823_S4823x129_S512x129_1_0_0_1_n_n_wf : DotDims.WF S512x4823 S4823x129 S512x129 [1] [0] [0] [1] [] []
  dot_S512x13_S13x1_S512x1_1_0_0_1_n_n_wf : DotDims.WF S512x13 S13x1 S512x1 [1] [0] [0] [1] [] []
  dot_S512x3328_S3328x256_S512x256_1_0_0_1_n_n_wf : DotDims.WF S512x3328 S3328x256 S512x256 [1] [0] [0] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x13.size a ≤ S16384x13.size a
  hwx0_0 : ∀ i : grid0.Coords, EltTy.bits .f32 = 32 ∨ (Rect.block (s := S16384x13) S512x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26.size a ≤ S16384x26.size a
  hwx0_1 : ∀ i : grid0.Coords, EltTy.bits .i32 = 32 ∨ (Rect.block (s := S16384x26) S512x26.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4823x129.size a ≤ S4823x129.size a
  hwx0_2 : ∀ i : grid0.Coords, EltTy.bits .f32 = 32 ∨ (Rect.block (s := S4823x129) S4823x129.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x1.size a ≤ S13x1.size a
  hwx0_3 : ∀ i : grid0.Coords, EltTy.bits .f32 = 32 ∨ (Rect.block (s := S13x1) S13x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3328x256.size a ≤ S3328x256.size a
  hwx0_4 : ∀ i : grid0.Coords, EltTy.bits .f32 = 32 ∨ (Rect.block (s := S3328x256) S3328x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S16384x1.size a
  hwx0_7 : ∀ i : grid0.Coords, EltTy.bits .f32 = 32 ∨ (Rect.block (s := S16384x1) S512x1.size (cc0_transform_7 i) (hinb0_7 i)).WholeWords (EltTy.packing .f32)

variable [Facts₀]

def dot_S512x4823_S4823x129_S512x129_1_0_0_1_n_n : DotDims S512x4823 S4823x129 S512x129 where
  lhsContracting := [1]
  rhsContracting := [0]
  lhsNonContracting := [0]
  rhsNonContracting := [1]
  lhsBatch := []
  rhsBatch := []
  wf := dot_S512x4823_S4823x129_S512x129_1_0_0_1_n_n_wf
def dot_S512x13_S13x1_S512x1_1_0_0_1_n_n : DotDims S512x13 S13x1 S512x1 where
  lhsContracting := [1]
  rhsContracting := [0]
  lhsNonContracting := [0]
  rhsNonContracting := [1]
  lhsBatch := []
  rhsBatch := []
  wf := dot_S512x13_S13x1_S512x1_1_0_0_1_n_n_wf
def dot_S512x3328_S3328x256_S512x256_1_0_0_1_n_n : DotDims S512x3328 S3328x256 S512x256 where
  lhsContracting := [1]
  rhsContracting := [0]
  lhsNonContracting := [0]
  rhsNonContracting := [1]
  lhsBatch := []
  rhsBatch := []
  wf := dot_S512x3328_S3328x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4823x129.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S13x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3328x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S4823x1 : Shape := ⟨2, ![4823, 1]⟩
abbrev S4823x128 : Shape := ⟨2, ![4823, 128]⟩
abbrev S1x13 : Shape := ⟨2, ![1, 13]⟩
abbrev S256x3328 : Shape := ⟨2, ![256, 3328]⟩
abbrev S256x256 : Shape := ⟨2, ![256, 256]⟩
abbrev S1x256 : Shape := ⟨2, ![1, 256]⟩
abbrev S_ : Shape := ⟨0, ![]⟩
abbrev S16384x26x1 : Shape := ⟨3, ![16384, 26, 1]⟩
abbrev S13x1 : Shape := ⟨2, ![13, 1]⟩
abbrev S16384x1 : Shape := ⟨2, ![16384, 1]⟩
abbrev S16384x26x128 : Shape := ⟨3, ![16384, 26, 128]⟩
abbrev S16384x128 : Shape := ⟨2, ![16384, 128]⟩
abbrev S16384 : Shape := ⟨1, ![16384]⟩
abbrev S16384x3328 : Shape := ⟨2, ![16384, 3328]⟩
abbrev S3328x256 : Shape := ⟨2, ![3328, 256]⟩
abbrev S16384x256 : Shape := ⟨2, ![16384, 256]⟩
abbrev S256x1 : Shape := ⟨2, ![256, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S4823x1, .f32⟩
  | .hbm, ⟨3, _⟩ => ⟨S4823x128, .f32⟩
  | .hbm, ⟨4, _⟩ => ⟨S1x13, .f32⟩
  | .hbm, ⟨5, _⟩ => ⟨S256x3328, .f32⟩
  | .hbm, ⟨6, _⟩ => ⟨S256x256, .f32⟩
  | .hbm, ⟨7, _⟩ => ⟨S1x256, .f32⟩
  | .hbm, ⟨8, _⟩ => ⟨S_, .i32⟩
  | .hbm, ⟨9, _⟩ => ⟨S16384x26, .i32⟩
  | .hbm, ⟨10, _⟩ => ⟨S16384x26, .i1⟩
  | .hbm, ⟨11, _⟩ => ⟨S_, .i32⟩
  | .hbm, ⟨12, _⟩ => ⟨S16384x26, .i32⟩
  | .hbm, ⟨13, _⟩ => ⟨S16384x26, .i32⟩
  | .hbm, ⟨14, _⟩ => ⟨S16384x26, .i32⟩
  | .hbm, ⟨15, _⟩ => ⟨S16384x26x1, .i32⟩
  | .hbm, ⟨16, _⟩ => ⟨S16384x26x1, .f32⟩
  | .hbm, ⟨17, _⟩ => ⟨S13x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x128, .f32⟩
  | .hbm, ⟨31, _⟩ => ⟨S_, .f32⟩
  | .hbm, ⟨32, _⟩ => ⟨S16384x128, .f32⟩
  | .hbm, ⟨33, _⟩ => ⟨S16384x26x128, .f32⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x3328, .f32⟩
  | .hbm, ⟨45, _⟩ => ⟨S3328x256, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S256x256, .f32⟩
  | .hbm, ⟨51, _⟩ => ⟨S16384x256, .f32⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S256x1, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  transposes_S1x13_S13x1_1_0 : S1x13.Transposes [1, 0] S13x1
  reducesTo_S16384x26x1_S16384x1_d1 : S16384x26x1.ReducesTo [1] S16384x1
  h_S_ : 0 < S_.numel
  reducesTo_S16384x26x128_S16384x128_d1 : S16384x26x128.ReducesTo [1] S16384x128
  reducesTo_S16384x128_S16384_d1 : S16384x128.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x26x128_S16384x3328 : S16384x26x128.ShapeCasts S16384x3328
  transposes_S256x3328_S3328x256_1_0 : S256x3328.Transposes [1, 0] S3328x256
  bcast_S_S16384x256 : S_.BroadcastsInDim S16384x256 (![] : Fin 0 → Fin S16384x256.rank)
  transposes_S256x256_S256x256_1_0 : S256x256.Transposes [1, 0] S256x256
  transposes_S1x256_S256x1_1_0 : S1x256.Transposes [1, 0] S256x1
  gather_S4823x1_S16384x26x1_S16384x26x1_2_0_n_n_0_2_11_wf : GatherDims.WF S4823x1 S16384x26x1 S16384x26x1 [2] [0] [] [0] [] 2 ![1, 1]
  dot_S16384x13_S13x1_S16384x1_1_0_0_1_n_n_wf : DotDims.WF S16384x13 S13x1 S16384x1 [1] [0] [0] [1] [] []
  gather_S4823x128_S16384x26x1_S16384x26x128_2_0_n_n_0_2_1128_wf : GatherDims.WF S4823x128 S16384x26x1 S16384x26x128 [2] [0] [] [0] [] 2 ![1, 128]
  dot_S16384x3328_S3328x256_S16384x256_1_0_0_1_n_n_wf : DotDims.WF S16384x3328 S3328x256 S16384x256 [1] [0] [0] [1] [] []
  dot_S16384x256_S256x256_S16384x256_1_0_0_1_n_n_wf : DotDims.WF S16384x256 S256x256 S16384x256 [1] [0] [0] [1] [] []
  dot_S16384x256_S256x1_S16384x1_1_0_0_1_n_n_wf : DotDims.WF S16384x256 S256x1 S16384x1 [1] [0] [0] [1] [] []

variable [Facts₀]

def gather_S4823x1_S16384x26x1_S16384x26x1_2_0_n_n_0_2_11 : GatherDims S4823x1 S16384x26x1 S16384x26x1 where
  offsetDims := [2]
  collapsedSliceDims := [0]
  operandBatchingDims := []
  startIndicesBatchingDims := []
  startIndexMap := [0]
  indexVectorDim := 2
  sliceSizes := ![1, 1]
  wf := gather_S4823x1_S16384x26x1_S16384x26x1_2_0_n_n_0_2_11_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S4823x128_S16384x26x1_S16384x26x128_2_0_n_n_0_2_1128 : GatherDims S4823x128 S16384x26x1 S16384x26x128 where
  offsetDims := [2]
  collapsedSliceDims := [0]
  operandBatchingDims := []
  startIndicesBatchingDims := []
  startIndexMap := [0]
  indexVectorDim := 2
  sliceSizes := ![1, 128]
  wf := gather_S4823x128_S16384x26x1_S16384x26x128_2_0_n_n_0_2_1128_wf
def dot_S16384x3328_S3328x256_S16384x256_1_0_0_1_n_n : DotDims S16384x3328 S3328x256 S16384x256 where
  lhsContracting := [1]
  rhsContracting := [0]
  lhsNonContracting := [0]
  rhsNonContracting := [1]
  lhsBatch := []
  rhsBatch := []
  wf := dot_S16384x3328_S3328x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
/-
  One row of the factorization-machine-plus-MLP score, as a function of that row's dense features, of the 26 embedding
  rows its index words select, and of the weights.

  For a row with dense features d (13 numbers) and gathered rows e2 t (128 numbers) and e1 t (one number), t < 26:
    linear part    Σ_k d k · fw k  +  Σ_t e1 t
    pairwise part  ½ · Σ_c ((Σ_t e2 t c)² − Σ_t (e2 t c)²)
    deep part      Σ_k max(Σ_k' max(Σ_q flat q · W1 q k', 0) · W2 k' k, 0) · W3 k,   flat (128·t + c) = e2 t c
  and the score is the logistic function of their sum, grouped (linear + pairwise) + deep.

  The kernel gathers a row by a sum over ALL table rows against the indicator "this index word names row v"; the host
  gathers by reading the table at the index word clamped into the table. For an index word inside the table the two are
  the same row (hot_sum). A negative index word the host first moves up by the table's length; on a non-negative word
  that step does nothing (wrap_id).
-/
import Idealize.ShloMosaic.PureOps.Ideal.Laws
import Idealize.ShloMosaic.Lib.ValueIdx

noncomputable section

open scoped BigOperators

namespace Cert.FmMlp

open Idealize.ShloMosaic Idealize.ShloMosaic.ValueIdx

/-! ## Selecting a table row -/

/-- The table row an index word names: the word read as a signed integer, clamped into the table's 4823 rows. -/
def rowOf (w : BitVec 32) : Fin 4823 := ⟨min w.toInt.toNat 4822, by omega⟩

/-- The indicator of "index word w names row v" as a number: the one-bit comparison of w with v's word, widened to
    32 bits and read as an integer. -/
def hot (w : BitVec 32) (v : Fin 4823) : EReal :=
  ((((IntOp.cmpi .eq w (BitVec.ofNat 32 v.val)).setWidth 32).toInt : ℝ) : EReal)

/-- The indicator is 1 on the named row and 0 elsewhere. -/
theorem hot_eq (w : BitVec 32) (v : Fin 4823) : hot w v = if w = BitVec.ofNat 32 v.val then 1 else 0 := by
  unfold hot IntOp.cmpi
  by_cases h : w = BitVec.ofNat 32 v.val
  · rw [if_pos h]; subst h; simp
  · rw [if_neg h]
    have : (w == BitVec.ofNat 32 v.val) = false := by simpa using h
    simp [this]

/-- An index word inside the table is the word of the row it names, and of no other row. -/
theorem eq_ofNat_iff (w : BitVec 32) (h0 : 0 ≤ w.toInt) (h1 : w.toInt < 4823) (v : Fin 4823) :
    w = BitVec.ofNat 32 v.val ↔ v = rowOf w := by
  have hn : w.toInt = (w.toNat : ℤ) := by
    rcases BitVec.toInt_eq_toNat_cond w with h
    rw [h] at h0 ⊢
    split_ifs at h0 ⊢ with hlt
    · rfl
    · have := w.isLt; omega
  have hlt : w.toNat < 4823 := by omega
  constructor
  · intro h
    apply Fin.ext
    have hv : w.toNat = v.val := by
      rw [h, BitVec.toNat_ofNat]; exact Nat.mod_eq_of_lt (by have := v.isLt; omega)
    show v.val = min w.toInt.toNat 4822
    rw [hn, Int.toNat_natCast]; omega
  · intro h
    have hv : v.val = w.toNat := by
      have := congrArg Fin.val h
      simp only [rowOf] at this
      rw [hn, Int.toNat_natCast] at this; omega
    apply BitVec.eq_of_toNat_eq
    rw [hv, BitVec.toNat_ofNat, Nat.mod_eq_of_lt w.isLt]

/-- THE GATHER BY INDICATOR: for an index word inside the table, the sum over all table rows of indicator times entry
    is the entry of the named row. (0 · x = 0 on the extended reals whatever x is, so no finiteness is asked.) -/
theorem hot_sum (w : BitVec 32) (h0 : 0 ≤ w.toInt) (h1 : w.toInt < 4823) (E : Fin 4823 → EReal) :
    ∑ v : Fin 4823, hot w v * E v = E (rowOf w) := by
  rw [Finset.sum_eq_single (rowOf w)]
  · rw [hot_eq, if_pos ((eq_ofNat_iff w h0 h1 _).mpr rfl), one_mul]
  · intro v _ hv
    rw [hot_eq, if_neg (fun h => hv ((eq_ofNat_iff w h0 h1 v).mp h)), zero_mul]
  · intro h; exact absurd (Finset.mem_univ _) h

/-- The host's treatment of a negative index word (add the table's length) leaves a non-negative word as it is. -/
theorem wrap_id (w : BitVec 32) (h0 : 0 ≤ w.toInt) :
    Scalar.select (IntOp.cmpi .slt w 0#32) (IntOp.addi w 4823#32) w = w := by
  have : IntOp.cmpi .slt w 0#32 = 0#1 := by
    unfold IntOp.cmpi
    have : w.slt 0#32 = false := by
      rw [BitVec.slt]; simp only [BitVec.toInt_zero, decide_eq_false_iff_not, not_lt]; exact h0
    simp [this]
  rw [this]; exact select_zero _ _

/-! ## A sum over the 26 features, taken one feature at a time -/

/-- The sum of the first n of 26 terms. -/
def partialSum (f : Fin 26 → EReal) (n : ℕ) : EReal := ∑ s : Fin 26, if s.val < n then f s else 0

theorem partialSum_zero (f : Fin 26 → EReal) : partialSum f 0 = 0 := by
  unfold partialSum; simp

theorem partialSum_succ (f : Fin 26 → EReal) (n : ℕ) (h : n < 26) :
    partialSum f (n + 1) = partialSum f n + f ⟨n, h⟩ := by
  unfold partialSum
  have : ∀ s : Fin 26, (if s.val < n + 1 then f s else 0) = (if s.val < n then f s else 0) + (if s = ⟨n, h⟩ then f s else 0) := by
    intro s
    have hs : s = ⟨n, h⟩ ↔ s.val = n := Fin.ext_iff
    by_cases h1 : s.val < n
    · rw [if_pos (Nat.lt_succ_of_lt h1), if_pos h1, if_neg (fun e => absurd (hs.mp e) (Nat.ne_of_lt h1)), add_zero]
    · by_cases h2 : s.val = n
      · rw [if_pos (h2 ▸ Nat.lt_succ_self _), if_neg h1, if_pos (hs.mpr h2), zero_add]
      · have h3 : ¬ s.val < n + 1 := fun h3 => h2 (Nat.le_antisymm (Nat.lt_succ_iff.mp h3) (Nat.not_lt.mp h1))
        rw [if_neg h3, if_neg h1, if_neg (fun e => h2 (hs.mp e)), add_zero]
  simp only [this, Finset.sum_add_distrib, Finset.sum_ite_eq', Finset.mem_univ, if_true]

theorem partialSum_all (f : Fin 26 → EReal) : partialSum f 26 = ∑ s, f s := by
  unfold partialSum
  exact Finset.sum_congr rfl fun s _ => if_pos s.isLt

/-! ## The score of one row, of a batch of rows, and of the whole input -/

/-- The literal one half. -/
def half : EReal := Ideal.ofBits .f32 0x3F000000#32

/-- One row's score from its dense features d, the feature weights fw, its gathered rows e2 (128 wide) and e1 (one
    number), and the three layers' weights. -/
def rowVal (d fw : Fin 13 → EReal) (e2 : Fin 26 → Fin 128 → EReal) (e1 : Fin 26 → EReal)
    (W1 : Fin 3328 → Fin 256 → EReal) (W2 : Fin 256 → Fin 256 → EReal) (W3 : Fin 256 → EReal) : EReal :=
  Ideal.logistic
    ((((∑ k, d k * fw k) + ∑ t, e1 t)
        + half * ∑ c, ((∑ t, e2 t c) * (∑ t, e2 t c) - ∑ t, e2 t c * e2 t c))
      + ∑ k, max (∑ k', max (∑ q : Fin 3328,
            e2 ⟨q.val / 128, by have := q.isLt; omega⟩ ⟨q.val % 128, Nat.mod_lt _ (by decide)⟩ * W1 q k') 0 * W2 k' k) 0 * W3 k)

/-- The scores of a batch of R rows, the gathered rows formed as the kernel forms them — by the indicator against the
    joined table (128 columns of the wide table, then the one column of the narrow one) — and the weights as the kernel
    receives them (contraction axis first). -/
def rowsVal {R : Nat} (dense : (⟨2, ![R, 13]⟩ : Shape).Idx → EReal) (sparse : (⟨2, ![R, 26]⟩ : Shape).Idx → BitVec 32)
    (tab : (⟨2, ![4823, 129]⟩ : Shape).Idx → EReal) (fwT : (⟨2, ![13, 1]⟩ : Shape).Idx → EReal)
    (w1T : (⟨2, ![3328, 256]⟩ : Shape).Idx → EReal) (w2T : (⟨2, ![256, 256]⟩ : Shape).Idx → EReal)
    (w3T : (⟨2, ![256, 1]⟩ : Shape).Idx → EReal) : (⟨2, ![R, 1]⟩ : Shape).Idx → EReal :=
  fun y => rowVal (fun k => dense (ix2 (y 0) k)) (fun k => fwT (ix2 k 0))
    (fun t c => ∑ v : Fin 4823, hot (sparse (ix2 (y 0) t)) v * tab (ix2 v (Fin.castLE (by decide) c)))
    (fun t => ∑ v : Fin 4823, hot (sparse (ix2 (y 0) t)) v * tab (ix2 v ⟨128, by decide⟩))
    (fun q j => w1T (ix2 q j)) (fun k j => w2T (ix2 k j)) (fun k => w3T (ix2 k 0))

/-- The scores of the whole input, the gathered rows read from the two tables at the clamped index words and the
    weights as the arguments give them (output axis first). -/
def G (dense : (⟨2, ![16384, 13]⟩ : Shape).Idx → EReal) (sparse : (⟨2, ![16384, 26]⟩ : Shape).Idx → BitVec 32)
    (emb1 : (⟨2, ![4823, 1]⟩ : Shape).Idx → EReal) (emb2 : (⟨2, ![4823, 128]⟩ : Shape).Idx → EReal)
    (fmw : (⟨2, ![1, 13]⟩ : Shape).Idx → EReal) (w1 : (⟨2, ![256, 3328]⟩ : Shape).Idx → EReal)
    (w2 : (⟨2, ![256, 256]⟩ : Shape).Idx → EReal) (w3 : (⟨2, ![1, 256]⟩ : Shape).Idx → EReal) :
    (⟨2, ![16384, 1]⟩ : Shape).Idx → EReal :=
  fun i => rowVal (fun k => dense (ix2 (i 0) k)) (fun k => fmw (ix2 0 k))
    (fun t c => emb2 (ix2 (rowOf (sparse (ix2 (i 0) t))) c))
    (fun t => emb1 (ix2 (rowOf (sparse (ix2 (i 0) t))) 0))
    (fun q j => w1 (ix2 j q)) (fun k j => w2 (ix2 j k)) (fun k => w3 (ix2 0 k))

end Cert.FmMlp

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.BodyCore.lean ====
/-
  What the kernel's body leaves in the output block at one grid point, as a function of the point's seven input blocks:
  the batch score of Proof/Spec.lean at 512 rows, the gathered rows formed by the indicator against the joined table.

  The body keeps two 512 × 129 accumulators and one 512 × 3328 row buffer. It zeroes the accumulators; then for each of
  the 26 features t it forms the gathered block R t — row b of R t is Σ_v [index word (b, t) names v] · table row v — and
  adds R t to the first accumulator, R t · R t to the second, and writes columns 0 … 127 of R t into columns
  128 t … 128 t + 127 of the row buffer. After the t-th round the accumulators hold the sums over the first t features;
  that is shown one round at a time, each round from the one before. After the last round the three buffers hold
  Σ_t R t, Σ_t (R t)² and the 26 blocks side by side, and the rest of the body is the row function of Proof/Spec.lean.
-/
import proofs.«403098_j70935679861554_1_alg».proof.Proof.Gen.KernelIdeal.Frame
import proofs.«403098_j70935679861554_1_alg».proof.Proof.Spec
import proofs.«403098_j70935679861554_1_alg».proof.Proof.LibPlainDot
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.ValueIdx
open Cert.FmMlp (hot partialSum)

/-! ## Loads after stores -/

section Loads
variable {Val : EltTy → Type} [∀ e, Nonempty (Val e)] {sg : RefSig} {κ : Kind} {sp : Space} {S : Shape} {e : EltTy}

/-- After a list of stores whose LAST is a store of w through the whole buffer, a load through any rectangle reads w
    there: the earlier stores are all overwritten. -/
theorem readCov_cons_whole (v : View sg κ sp S e) {off : Fin S.rank → Nat} (h : off = fun _ => 0)
    (inb : ∀ a, off a + S.size a ≤ S.size a) (w : S.Idx → Val e) (L : List (View.Piece Val S e)) (r : Rect S) :
    v.readCov ((⟨Rect.unit off S.size inb, w⟩ : View.Piece Val S e) :: L) r.toLoadRect = View.ld w r := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl]

/-- The same read at one index of the rectangle: the buffer's contents at the index the rectangle puts it. -/
theorem readCov_of_whole_head (v : View sg κ sp S e) {off : Fin S.rank → Nat} (h : off = fun _ => 0)
    (inb : ∀ a, off a + S.size a ≤ S.size a) (w : S.Idx → Val e) (L : List (View.Piece Val S e)) (r : Rect S) (j : r.shape.Idx) :
    v.readCov ((⟨Rect.unit off S.size inb, w⟩ : View.Piece Val S e) :: L) r.toLoadRect j
      = View.canon ((⟨Rect.unit off S.size inb, w⟩ : View.Piece Val S e) :: L) (r.idx j) := by
  rw [readCov_cons_whole v h inb w L r, View.canon_cons_unit_zero h]

end Loads

/-- The offsets of a rectangle that starts at the buffer's corner. -/
theorem off00 : (![0, 0] : Fin 2 → ℕ) = fun _ => 0 := by
  funext a; match a with | ⟨0, _⟩ => rfl | ⟨1, _⟩ => rfl

/-! ## The gathered block -/

/-- THE GATHERED BLOCK AT AN INDEX. The comparison of the index column, repeated along the table's 4823 rows, with the
    row number, widened and converted to a number, is the indicator; its product with the table into the zero
    accumulator is, at (b, c), the sum over table rows v of indicator (b, v) times table (v, c). -/
theorem gather_apply (tab : FVec Ideal S4823x129 .bf16) (idx : IVec S512x1 32)
    (h1 : S512x1.Broadcasts S512x4823) (h2 : S512x4823.Iotas .tc 32 [1]) (h3 : 1 < 32) (h4 : FTy.bf16.bits < FTy.f32.bits)
    (b : Fin 512) (cc : Fin 129) :
    matmul dot_S512x4823_S4823x129_S512x129_1_0_0_1_n_n none
      (truncf .bf16 (sitofp .f32 (extui 32 (cmpi .eq (broadcastTo S512x4823 idx h1) (iota .tc S512x4823 32 [1] h2)) h3) : FVec Ideal S512x4823 .f32) h4)
      tab (constant S512x129 .f32 0x00000000#32) (ix2 b cc)
    = ∑ v : Fin 4823, hot (idx (ix2 b 0)) v * tab (ix2 v cc) := by
  refine (Cert.Lib.PlainDot.matmul_plain_zero_ix2 512 4823 129 none _ tab b cc).trans ?_
  refine Finset.sum_congr rfl fun v _ => ?_
  congr 1
  show ((((IntOp.cmpi .eq (broadcastTo S512x4823 idx h1 (ix2 b v)) (iota .tc S512x4823 32 [1] h2 (ix2 b v))).setWidth 32).toInt : ℝ) : EReal) = _
  have e1 : broadcastTo S512x4823 idx h1 (ix2 b v) = idx (ix2 b 0) := by
    refine congrArg idx (funext fun a => Fin.ext ?_)
    match a with
    | ⟨0, _⟩ => rfl
    | ⟨1, _⟩ => rfl
  have e2 : iota .tc S512x4823 32 [1] h2 (ix2 b v) = BitVec.ofNat 32 v.val := by
    show BitVec.ofNat 32 (0 * 4823 + v.val) = _
    rw [Nat.zero_mul, Nat.zero_add]
  rw [e1, e2]; rfl

/-! ## The gathered block of one feature -/

/-- The gathered block of feature t at (b, c): the sum over table rows of the indicator of "index word (b, t) names v"
    times table (v, c). -/
def R (x1 : Vec Ideal S512x26 .i32) (x2 : Vec Ideal S4823x129 .f32) (b : Fin 512) (cc : Fin 129) (t : Fin 26) : EReal :=
  ∑ v : Fin 4823, hot (x1 (ix2 b t)) v * x2 (ix2 v cc)

/-- Its square. -/
def Rsq (x1 : Vec Ideal S512x26 .i32) (x2 : Vec Ideal S4823x129 .f32) (b : Fin 512) (cc : Fin 129) (t : Fin 26) : EReal :=
  R x1 x2 b cc t * R x1 x2 b cc t

section Blocks
variable (arg2 : Memref sig .tc .vmem S512x26 .i32) (harg2 : arg2.IsWhole) (arg3 : Memref sig .tc .vmem S4823x129 .f32) (harg3 : arg3.IsWhole)
  (x1 : Vec Ideal S512x26 .i32) (x2 : Vec Ideal S4823x129 .f32)

/-- The column of index words of feature s, loaded as a 512 × 1 block, holds at row b the index word (b, s). -/
theorem idx_col (s : ℕ) (hs : s < 26) (inb : ∀ a : Fin S512x26.rank, (![0, s] : Fin 2 → ℕ) a + (![512, 1] : Fin 2 → ℕ) a ≤ S512x26.size a) (b : Fin 512) :
    View.readAt (Elt Ideal) arg2.view (Rect.unit (s := S512x26) ![0, s] ![512, 1] inb).toLoadRect (harg2.unread x1) (ix2 b (0 : Fin 1))
      = x1 (ix2 b ⟨s, hs⟩) := by
  rw [View.readAt_eq_ld, harg2.read_unread]
  show x1 ((Rect.unit (s := S512x26) ![0, s] ![512, 1] inb).idx (ix2 b (0 : Fin 1))) = _
  refine congrArg x1 (funext fun a => Fin.ext ?_)
  match a with
  | ⟨0, _⟩ => show 0 + 1 * b.val = b.val; omega
  | ⟨1, _⟩ => show s + 1 * 0 = s; omega

/-- The table block, loaded whole and narrowed, reads the table block. -/
theorem tab_at (inb : ∀ a : Fin S4823x129.rank, (![0, 0] : Fin 2 → ℕ) a + (![4823, 129] : Fin 2 → ℕ) a ≤ S4823x129.size a)
    (h4 : FTy.bf16.bits < FTy.f32.bits) (v : Fin 4823) (cc : Fin 129) :
    (truncf (F := Ideal) .bf16 (View.readAt (Elt Ideal) arg3.view (Rect.unit (s := S4823x129) ![0, 0] ![4823, 129] inb).toLoadRect (harg3.unread x2) : FVec Ideal S4823x129 .f32) h4 (ix2 v cc) : EReal)
      = (x2 (ix2 v cc) : EReal) := by
  show View.readAt (Elt Ideal) arg3.view (Rect.unit (s := S4823x129) ![0, 0] ![4823, 129] inb).toLoadRect (harg3.unread x2) (ix2 v cc) = _
  rw [View.readAt_eq_ld, harg3.read_unread]
  exact congrFun (View.ld_unit_zero (S := S4823x129) off00 inb x2) (ix2 v cc)

/-- ONE ROUND'S GATHERED BLOCK: the indicator sum over the loaded index column of feature j and the loaded table is the
    gathered block of feature j. -/
theorem round_sum (j : ℕ) (hj : j < 26)
    (inb2 : ∀ a : Fin S512x26.rank, (![0, j] : Fin 2 → ℕ) a + (![512, 1] : Fin 2 → ℕ) a ≤ S512x26.size a)
    (inb3 : ∀ a : Fin S4823x129.rank, (![0, 0] : Fin 2 → ℕ) a + (![4823, 129] : Fin 2 → ℕ) a ≤ S4823x129.size a)
    (h4 : FTy.bf16.bits < FTy.f32.bits) (b : Fin 512) (cc : Fin 129) :
    (∑ v : Fin 4823, hot (View.readAt (Elt Ideal) arg2.view (Rect.unit (s := S512x26) ![0, j] ![512, 1] inb2).toLoadRect (harg2.unread x1) (ix2 b (0 : Fin 1))) v
        * (truncf (F := Ideal) .bf16 (View.readAt (Elt Ideal) arg3.view (Rect.unit (s := S4823x129) ![0, 0] ![4823, 129] inb3).toLoadRect (harg3.unread x2) : FVec Ideal S4823x129 .f32) h4 (ix2 v cc) : EReal))
      = R x1 x2 b cc ⟨j, hj⟩ := by
  unfold R
  refine Finset.sum_congr rfl fun v _ => ?_
  rw [idx_col arg2 harg2 x1 j hj inb2 b, tab_at arg3 harg3 x2 inb3 h4 v cc]

end Blocks

/-- Opens one round's store value down to the library's operations: the values the body's windows hand on, the row
    numbers, and the store values' definitions. -/
macro "open_round" : tactic => `(tactic| simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.v8, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, shapeCast_self])

end Cert.KernelIdeal.Body

end
-- ==== Proof.BodyAcc.lean ====
/- The first accumulator, round by round: after round j it holds the sum of the gathered blocks of the first j features. Each
  round's lemma opens that round's store value, uses the lemma of the round before for the value loaded back, reads the
  round's gathered block at an index (Proof/BodyCore.lean), and adds one term to the partial sum. -/
import proofs.«403098_j70935679861554_1_alg».proof.Proof.BodyCore

set_option maxRecDepth 16384

noncomputable section

namespace Cert.KernelIdeal.Body

open Cert.KernelIdeal Cert.KernelIdeal.Gen Idealize.ShloMosaic Idealize.ShloMosaic.TcCoe Idealize.ShloMosaic.ValueIdx
open Cert.FmMlp (hot partialSum)

section Rounds
variable (c : Dev nD) (arg2 : Memref sig .tc .vmem S512x26 .i32) (harg2 : arg2.IsWhole) (arg3 : Memref sig .tc .vmem S4823x129 .f32) (harg3 : arg3.IsWhole)
  (arg10 : Memref sig .tc .vmem S512x129 .f32) (x1 : Vec Ideal S512x26 .i32) (x2 : Vec Ideal S4823x129 .f32)

/-- Before the first round the accumulator holds zero: the empty sum. -/
theorem acc_0 (b : Fin 512) (cc : Fin 129) :
    kernelRun0_A.sl.v19 (F := Ideal) c arg10 (ix2 b cc) = partialSum (R x1 x2 b cc) 0 := by
  unfold kernelRun0_A.sl.v19 kernelRun0_A.sl.HS1_1
  rw [readCov_cons_whole _ off00, View.ld_unit_zero (S := S512x129) off00, Cert.FmMlp.partialSum_zero]
  simp only [k0_pay2, shapeCast_self]
  exact Ideal.ofBits_zero_f32

/-- After round 1 the accumulator holds the sum of the gathered blocks of the first 1 features: what it held before the round plus feature 0's. -/
theorem acc_1 (b : Fin 512) (cc : Fin 129) :
    kernelRun0_A.sl.v42 (F := Ideal) c arg2 harg2 arg3 harg3 arg10 x1 x2 (ix2 b cc) = partialSum (R x1 x2 b cc) 1 := by
  unfold kernelRun0_A.sl.v42 kernelRun0_A.sl.HS1_2
  rw [readCov_cons_whole _ off00, View.ld_unit_zero (S := S512x129) off00]
  open_round
  rw [addf_apply, acc_0 c arg10 x1 x2 b cc, gather_apply, round_sum arg2 harg2 arg3 harg3 x1 x2 0 (by decide)]
  exact (Cert.FmMlp.partialSum_succ (R x1 x2 b cc) 0 (by decide)).symm

/-- After round 2 the accumulator holds the sum of the gathered blocks of the first 2 features: what it held before the round plus feature 1's. -/
theorem acc_2 (b : Fin 512) (cc : Fin 129) :
    kernelRun0_A.sl.v65 (F := Ideal) c arg2 harg2 arg3 harg3 arg10 x1 x2 (ix2 b cc) = partialSum (R x1 x2 b cc) 2 := by
  unfold kernelRun0_A.sl.v65 kernelRun0_A.sl.HS1_3
  rw [readCov_cons_whole _ off00, View.ld_unit_zero (S := S512x129) off00]
  open_round
  rw [addf_apply, acc_1 c arg2 harg2 arg3 harg3 arg10 x1 x2 b cc, gather_apply, round_sum arg2 harg2 arg3 harg3 x1 x2 1 (by decide)]
  exact (Cert.FmMlp.partialSum_succ (R x1 x2 b cc) 1 (by decide)).symm

/-- After round 3 the accumulator holds the sum of the gathered blocks of the first 3 features: what it held before the round plus feature 2's. -/
theorem acc_3 (b : Fin 512) (cc : Fin 129) :
    kernelRun0_A.sl.v88 (F := Ideal) c arg2 harg2 arg3 harg3 arg10 x1 x2 (ix2 b cc) = partialSum (R x1 x2 b cc) 3 := by
  unfold kernelRun0_A.sl.v88 kernelRun0_A.sl.HS1_4
  rw [readCov_cons_whole _ off00, View.ld_unit_zero (S := S512x129) off00]
  open_round
  rw [addf_apply, acc_2 c arg2 harg2 arg3 harg3 arg10 x1 x2 b cc, gather_apply, round_sum arg2 harg2 arg3 harg3 x1 x2 2 (by decide)]
  exact (Cert.FmMlp.partialSum_succ (R x1 x2 b cc) 2 (by decide)).symm

/-- After round 4 the accumulator holds the sum of the gathered blocks of the first 4 features: what it held before the round plus feature 3's. -/
theorem acc_4 (b : Fin 512) (cc : Fin 129) :
    kernelRun0_A.sl.v111 (F := Ideal) c arg2 harg2 arg3 harg3 arg10 x1 x2 (ix2 b cc) = partialSum (R x1 x2 b cc) 4 := by
  unfold kernelRun0_A.sl.v111 kernelRun0_A.sl.HS1_5
  rw [readCov_cons_whole _ off00, View.ld_unit_zero (S := S512x129) off00]
  open_round
  rw [addf_apply, acc_3 c arg2 harg2 arg3 harg3 arg10 x1 x2 b cc, gather_apply, round_sum arg2 harg2 arg3 harg3 x1 x2 3 (by decide)]
  exact (Cert.FmMlp.partialSum_succ (R x1 x2 b cc) 3 (by decide)).symm

/-- After round 5 the accumulator holds the sum of the gathered blocks of the first 5 features: what it held before the round plus feature 4's. -/
theorem acc_5 (b : Fin 512) (cc : Fin 129) :
    kernelRun0_A.sl.v134 (F := Ideal) c arg2 harg2 arg3 harg3 arg10 x1 x2 (ix2 b cc) = partialSum (R x1 x2 b cc) 5 := by
  unfold kernelRun0_A.sl.v134 kernelRun0_A.sl.HS1_6
  rw [readCov_cons_whole _ off00, View.ld_unit_zero (S := S512x129) off00]
  open_round
  rw [addf_apply, acc_4 c arg2 harg2 arg3 harg3 arg10 x1 x2 b cc, gather_apply, round_sum arg2 harg2 arg3 harg3 x1 x2 4 (by decide)]
  exact (Cert.FmMlp.partialSum_succ (R x1 x2 b cc) 4 (by decide)).symm

/-- After round 6 the accumulator holds the sum of the gathered blocks of the first 6 features: what it held before the round plus feature 5's. -/
theorem acc_6 (b : Fin 512) (cc : Fin 129) :
    kernelRun0_A.sl.v157 (F := Ideal) c arg2 harg2 arg3 harg3 arg10 x1 x2 (ix2 b cc) = partialSum (R x1 x2 b cc) 6 := by
  unfold kernelRun0_A.sl.v157 kernelRun0_A.sl.HS1_7
  rw [readCov_cons_whole _ off00, View.ld_unit_zero (S := S512x129) off00]
  open_round
  rw [addf_apply, acc_5 c arg2 harg2 arg3 harg3 arg10 x1 x2 b cc, gather_apply, round_sum arg2 harg2 arg3 harg3 x1 x2 5 (by decide)]
  exact (Cert.FmMlp.partialSum_succ (R x1 x2 b cc) 5 (by decide)).symm

/-- After round 7 the accumulator holds the sum of the gathered blocks of the first 7 features: what it held before the round plus feature 6's. -/
theorem acc_7 (b : Fin 512) (cc : Fin 129) :
    kernelRun0_A.sl.v180 (F := Ideal) c arg2 harg2 arg3 harg3 arg10 x1 x2 (ix2 b cc) = partialSum (R x1 x2 b cc) 7 := by
  unfold kernelRun0_A.sl.v180 kernelRun0_A.sl.HS1_8
  rw [readCov_cons_whole _ off00, View.ld_unit_zero (S := S512x129) off00]
  open_round
  rw [addf_apply, acc_6 c arg2 harg2 arg3 harg3 arg10 x1 x2 b cc, gather_apply, round_sum arg2 harg2 arg3 harg3 x1 x2 6 (by decide)]
  exact (Cert.FmMlp.partialSum_succ (R x1 x2 b cc) 6 (by decide)).symm

/-- After round 8 the accumulator holds the sum of the gathered blocks of the first 8 features: what it held before the round plus feature 7's. -/
theorem acc_8 (b : Fin 512) (cc : Fin 129) :
    kernelRun0_A.sl.v203 (F := Ideal) c arg2 harg2 arg3 harg3 arg10 x1 x2 (ix2 b cc) = partialSum (R x1 x2 b cc) 8 := by
  unfold kernelRun0_A.sl.v203 kernelRun0_A.sl.HS1_9
  rw [readCov_cons_whole _ off00, View.ld_unit_zero (S := S512x129) off00]
  open_round
  rw [addf_apply, acc_7 c arg2 harg2 arg3 harg3 arg10 x1 x2 b cc, gather_apply, round_sum arg2 harg2 arg3 harg3 x1 x2 7 (by decide)]
  exact (Cert.FmMlp.partialSum_succ (R x1 x2 b cc) 7 (by decide)).symm

/-- After round 9 the accumulator holds the sum of the gathered blocks of the first 9 features: what it held before the round plus feature 8's. -/
theorem acc_9 (b : Fin 512) (cc : Fin 129) :
    kernelRun0_A.sl.v226 (F := Ideal) c arg2 harg2 arg3 harg3 arg10 x1 x2 (ix2 b cc) = partialSum (R x1 x2 b cc) 9 := by
  unfold kernelRun0_A.sl.v226 kernelRun0_A.sl.HS1_10
  rw [readCov_cons_whole _ off00, View.ld_unit_zero (S := S512x129) off00]
  open_round
  rw [addf_apply, acc_8 c arg2 harg2 arg3 harg3 arg10 x1 x2 b cc, gather_apply, round_sum arg2 harg2 arg3 harg3 x1 x2 8 (by decide)]
  exact (Cert.FmMlp.partialSum_succ (R x1 x2 b cc) 8 (by decide)).symm

/-- After round 10 the accumulator holds the sum of the gathered blocks of the first 10 features: what it held before the round plus feature 9's. -/
theorem acc_10 (b : Fin 512) (cc : Fin 129) :
    kernelRun0_A.sl.v249 (F := Ideal) c arg2 harg2 arg3 harg3 arg10 x1 x2 (ix2 b cc) = partialSum (R x1 x2 b cc) 10 := by
  unfold kernelRun0_A.sl.v249 kernelRun0_A.sl.HS1_11
  rw [readCov_cons_whole _ off00, View.ld_unit_zero (S := S512x129) off00]
  open_round
  rw [addf_apply, acc_9 c arg2 harg2 arg3 harg3 arg10 x1 x2 b cc, gather_apply, round_sum arg2 harg2 arg3 harg3 x1 x2 9 (by decide)]
  exact (Cert.FmMlp.partialSum_succ (R x1 x2 b cc) 9 (by decide)).symm

/-- After round 11 the accumulator holds the sum of the gathered blocks of the first 11 features: what it held before the round plus feature 10's. -/
theorem acc_11 (b : Fin 512) (cc : Fin 129) :
    kernelRun0_A.sl.v272 (F := Ideal) c arg2 harg2 arg3 harg3 arg10 x1 x2 (ix2 b cc) = partialSum (R x1 x2 b cc) 11 := by
  unfold kernelRun0_A.sl.v272 kernelRun0_A.sl.HS1_12
  rw [readCov_cons_whole _ off00, View.ld_unit_zero (S := S512x129) off00]
  open_round
  rw [addf_apply, acc_10 c arg2 harg2 arg3 harg3 arg10 x1 x2 b cc, gather_apply, round_sum arg2 harg2 arg3 harg3 x1 x2 10 (by decide)]
  exact (Cert.FmMlp.partialSum_succ (R x1 x2 b cc) 10 (by decide)).symm

/-- After round 12 the accumulator holds the sum of the gathered blocks of the first 12 features: what it held before the round plus feature 11's. -/
theorem acc_12 (b : Fin 512) (cc : Fin 129) :
    kernelRun0_A.sl.v295 (F := Ideal) c arg2 harg2 arg3 harg3 arg10 x1 x2 (ix2 b cc) = partialSum (R x1 x2 b cc) 12 := by
  unfold kernelRun0_A.sl.v295 kernelRun0_A.sl.HS1_13
  rw [readCov_cons_whole _ off00, View.ld_unit_zero (S := S512x129) off00]
  open_round
  rw [addf_apply, acc_11 c arg2 harg2 arg3 harg3 arg10 x1 x2 b cc, gather_apply, round_sum arg2 harg2 arg3 harg3 x1 x2 11 (by decide)]
  exact (Cert.FmMlp.partialSum_succ (R x1 x2 b cc) 11 (by decide)).symm

/-- After round 13 the accumulator holds the sum of the gathered blocks of the first 13 features: what it held before the round plus feature 12's. -/
theorem acc_13 (b : Fin 512) (cc : Fin 129) :
    kernelRun0_A.sl.v318 (F := Ideal) c arg2 harg2 arg3 harg3 arg10 x1 x2 (ix2 b cc) = partialSum (R x1 x2 b cc) 13 := by
  unfold kernelRun0_A.sl.v318 kernelRun0_A.sl.HS1_14
  rw [readCov_cons_whole _ off00, View.ld_unit_zero (S := S512x129) off00]
  open_round
  rw [addf_apply, acc_12 c arg2 harg2 arg3 harg3 arg10 x1 x2 b cc, gather_apply, round_sum arg2 harg2 arg3 harg3 x1 x2 12 (by decide)]
  exact (Cert.FmMlp.partialSum_succ (R x1 x2 b cc) 12 (by decide)).symm

/-- After round 14 the accumulator holds the sum of the gathered blocks of the first 14 features: what it held before the round plus feature 13's. -/
theorem acc_14 (b : Fin 512) (cc : Fin 129) :
    kernelRun0_A.sl.v341 (F := Ideal) c arg2 harg2 arg3 harg3 arg10 x1 x2 (ix2 b cc) = partialSum (R x1 x2 b cc) 14 := by
  unfold kernelRun0_A.sl.v341 kernelRun0_A.sl.HS1_15
  rw [readCov_cons_whole _ off00, View.ld_unit_zero (S := S512x129) off00]
  open_round
  rw [addf_apply, acc_13 c arg2 harg2 arg3 harg3 arg10 x1 x2 b cc, gather_apply, round_sum arg2 harg2 arg3 harg3 x1 x2 13 (by decide)]
  exact (Cert.FmMlp.partialSum_succ (R x1 x2 b cc) 13 (by decide)).symm

/-- After round 15 the accumulator holds the sum of the gathered blocks of the first 15 features: what it held before the round plus feature 14's. -/
theorem acc_15 (b : Fin 512) (cc : Fin 129) :
    kernelRun0_A.sl.v364 (F := Ideal) c arg2 harg2 arg3 harg3 arg10 x1 x2 (ix2 b cc) = partialSum (R x1 x2 b cc) 15 := by
  unfold kernelRun0_A.sl.v364 kernelRun0_A.sl.HS1_16
  rw [readCov_cons_whole _ off00, View.ld_unit_zero (S := S512x129) off00]
  open_round
  rw [addf_apply, acc_14 c arg2 harg2 arg3 harg3 arg10 x1 x2 b cc, gather_apply, round_sum arg2 harg2 arg3 harg3 x1 x2 14 (by decide)]
  exact (Cert.FmMlp.partialSum_succ (R x1 x2 b cc) 14 (by decide)).symm

/-- After round 16 the accumulator holds the sum of the gathered blocks of the first 16 features: what it held before the round plus feature 15's. -/
theorem acc_16 (b : Fin 512) (cc : Fin 129) :
    kernelRun0_A.sl.v387 (F := Ideal) c arg2 harg2 arg3 harg3 arg10 x1 x2 (ix2 b cc) = partialSum (R x1 x2 b cc) 16 := by
  unfold kernelRun0_A.sl.v387 kernelRun0_A.sl.HS1_17
  rw [readCov_cons_whole _ off00, View.ld_unit_zero (S := S512x129) off00]
  open_round
  rw [addf_apply, acc_15 c arg2 harg2 arg3 harg3 arg10 x1 x2 b cc, gather_apply, round_sum arg2 harg2 arg3 harg3 x1 x2 15 (by decide)]
  exact (Cert.FmMlp.partialSum_succ (R x1 x2 b cc) 15 (by decide)).symm

/-- After round 17 the accumulator holds the sum of the gathered blocks of the first 17 features: what it held before the round plus feature 16's. -/
theorem acc_17 (b : Fin 512) (cc : Fin 129) :
    kernelRun0_A.sl.v410 (F := Ideal) c arg2 harg2 arg3 harg3 arg10 x1 x2 (ix2 b cc) = partialSum (R x1 x2 b cc) 17 := by
  unfold kernelRun0_A.sl.v410 kernelRun0_A.sl.HS1_18
  rw [readCov_cons_whole _ off00, View.ld_unit_zero (S := S512x129) off00]
  open_round
  rw [addf_apply, acc_16 c arg2 harg2 arg3 harg3 arg10 x1 x2 b cc, gather_apply, round_sum arg2 harg2 arg3 harg3 x1 x2 16 (by decide)]
  exact (Cert.FmMlp.partialSum_succ (R x1 x2 b cc) 16 (by decide)).symm

/-- After round 18 the accumulator holds the sum of the gathered blocks of the first 18 features: what it held before the round plus feature 17's. -/
theorem acc_18 (b : Fin 512) (cc : Fin 129) :
    kernelRun0_A.sl.v433 (F := Ideal) c arg2 harg2 arg3 harg3 arg10 x1 x2 (ix2 b cc) = partialSum (R x1 x2 b cc) 18 := by
  unfold kernelRun0_A.sl.v433 kernelRun0_A.sl.HS1_19
  rw [readCov_cons_whole _ off00, View.ld_unit_zero (S := S512x129) off00]
  open_round
  rw [addf_apply, acc_17 c arg2 harg2 arg3 harg3 arg10 x1 x2 b cc, gather_apply, round_sum arg2 harg2 arg3 harg3 x1 x2 17 (by decide)]
  exact (Cert.FmMlp.partialSum_succ (R x1 x2 b cc) 17 (by decide)).symm

/-- After round 19 the accumulator holds the sum of the gathered blocks of the first 19 features: what it held before the round plus feature 18's. -/
theorem acc_19 (b : Fin 512) (cc : Fin 129) :
    kernelRun0_A.sl.v456 (F := Ideal) c arg2 harg2 arg3 harg3 arg10 x1 x2 (ix2 b cc) = partialSum (R x1 x2 b cc) 19 := by
  unfold kernelRun0_A.sl.v456 kernelRun0_A.sl.HS1_20
  rw [readCov_cons_whole _ off00, View.ld_unit_zero (S := S512x129) off00]
  open_round
  rw [addf_apply, acc_18 c arg2 harg2 arg3 harg3 arg10 x1 x2 b cc, gather_apply, round_sum arg2 harg2 arg3 harg3 x1 x2 18 (by decide)]
  exact (Cert.FmMlp.partialSum_succ (R x1 x2 b cc) 18 (by decide)).symm

/-- After round 20 the accumulator holds the sum of the gathered blocks of the first 20 features: what it held before the round plus feature 19's. -/
theorem acc_20 (b : Fin 512) (cc : Fin 129) :
    kernelRun0_A.sl.v479 (F := Ideal) c arg2 harg2 arg3 harg3 arg10 x1 x2 (ix2 b cc) = partialSum (R x1 x2 b cc) 20 := by
  unfold kernelRun0_A.sl.v479 kernelRun0_A.sl.HS1_21
  rw [readCov_cons_whole _ off00, View.ld_unit_zero (S := S512x129) off00]
  open_round
  rw [addf_apply, acc_19 c arg2 harg2 arg3 harg3 arg10 x1 x2 b cc, gather_apply, round_sum arg2 harg2 arg3 harg3 x1 x2 19 (by decide)]
  exact (Cert.FmMlp.partialSum_succ (R x1 x2 b cc) 19 (by decide)).symm

/-- After round 21 the accumulator holds the sum of the gathered blocks of the first 21 features: what it held before the round plus feature 20's. -/
theorem acc_21 (b : Fin 512) (cc : Fin 129) :
    kernelRun0_A.sl.v502 (F := Ideal) c arg2 harg2 arg3 harg3 arg10 x1 x2 (ix2 b cc) = partialSum (R x1 x2 b cc) 21 := by
  unfold kernelRun0_A.sl.v502 kernelRun0_A.sl.HS1_22
  rw [readCov_cons_whole _ off00, View.ld_unit_zero (S := S512x129) off00]
  open_round
  rw [addf_apply, acc_20 c arg2 harg2 arg3 harg3 arg10 x1 x2 b cc, gather_apply, round_sum arg2 harg2 arg3 harg3 x1 x2 20 (by decide)]
  exact (Cert.FmMlp.partialSum_succ (R x1 x2 b cc) 20 (by decide)).symm

/-- After round 22 the accumulator holds the sum of the gathered blocks of the first 22 features: what it held before the round plus feature 21's. -/
theorem acc_22 (b : Fin 512) (cc : Fin 129) :
    kernelRun0_A.sl.v525 (F := Ideal) c arg2 harg2 arg3 harg3 arg10 x1 x2 (ix2 b cc) = partialSum (R x1 x2 b cc) 22 := by
  unfold kernelRun0_A.sl.v525 kernelRun0_A.sl.HS1_23
  rw [readCov_cons_whole _ off00, View.ld_unit_zero (S := S512x129) off00]
  open_round
  rw [addf_apply, acc_21 c arg2 harg2 arg3 harg3 arg10 x1 x2 b cc, gather_apply, round_sum arg2 harg2 arg3 harg3 x1 x2 21 (by decide)]
  exact (Cert.FmMlp.partialSum_succ (R x1 x2 b cc) 21 (by decide)).symm

/-- After round 23 the accumulator holds the sum of the gathered blocks of the first 23 features: what it held before the round plus feature 22's. -/
theorem acc_23 (b : Fin 512) (cc : Fin 129) :
    kernelRun0_A.sl.v548 (F := Ideal) c arg2 harg2 arg3 harg3 arg10 x1 x2 (ix2 b cc) = partialSum (R x1 x2 b cc) 23 := by
  unfold kernelRun0_A.sl.v548 kernelRun0_A.sl.HS1_24
  rw [readCov_cons_whole _ off00, View.ld_unit_zero (S := S512x129) off00]
  open_round
  rw [addf_apply, acc_22 c arg2 harg2 arg3 harg3 arg10 x1 x2 b cc, gather_apply, round_sum arg2 harg2 arg3 harg3 x1 x2 22 (by decide)]
  exact (Cert.FmMlp.partialSum_succ (R x1 x2 b cc) 22 (by decide)).symm

/-- After round 24 the accumulator holds the sum of the gathered blocks of the first 24 features: what it held before the round plus feature 23's. -/
theorem acc_24 (b : Fin 512) (cc : Fin 129) :
    kernelRun0_A.sl.v571 (F := Ideal) c arg2 harg2 arg3 harg3 arg10 x1 x2 (ix2 b cc) = partialSum (R x1 x2 b cc) 24 := by
  unfold kernelRun0_A.sl.v571 kernelRun0_A.sl.HS1_25
  rw [readCov_cons_whole _ off00, View.ld_unit_zero (S := S512x129) off00]
  open_round
  rw [addf_apply, acc_23 c arg2 harg2 arg3 harg3 arg10 x1 x2 b cc, gather_apply, round_sum arg2 harg2 arg3 harg3 x1 x2 23 (by decide)]
  exact (Cert.FmMlp.partialSum_succ (R x1 x2 b cc) 23 (by decide)).symm

/-- After round 25 the accumulator holds the sum of the gathered blocks of the first 25 features: what it held before the round plus feature 24's. -/
theorem acc_25 (b : Fin 512) (cc : Fin 129) :
    kernelRun0_A.sl.v594 (F := Ideal) c arg2 harg2 arg3 harg3 arg10 x1 x2 (ix2 b cc) = partialSum (R x1 x2 b cc) 25 := by
  unfold kernelRun0_A.sl.v594 kernelRun0_A.sl.HS1_26
  rw [readCov_cons_whole _ off00, View.ld_unit_zero (S := S512x129) off00]
  open_round
  rw [addf_apply, acc_24 c arg2 harg2 arg3 harg3 arg10 x1 x2 b cc, gather_apply, round_sum arg2 harg2 arg3 harg3 x1 x2 24 (by decide)]
  exact (Cert.FmMlp.partialSum_succ (R x1 x2 b cc) 24 (by decide)).symm

/-- After the last round the accumulator's contents are the sum of the gathered blocks of all 26 features. -/
theorem acc_26 (b : Fin 512) (cc : Fin 129) :
    View.canon (kernelRun0_A.sl.HS1_27 (F := Ideal) c arg2 harg2 arg3 harg3 arg10 x1 x2) (ix2 b cc) = partialSum (R x1 x2 b cc) 26 := by
  unfold kernelRun0_A.sl.HS1_27
  rw [View.canon_cons_unit_zero off00]
  open_round
  rw [addf_apply, acc_25 c arg2 harg2 arg3 harg3 arg10 x1 x2 b cc, gather_apply, round_sum arg2 harg2 arg3 harg3 x1 x2 25 (by decide)]
  exact (Cert.FmMlp.partialSum_succ (R x1 x2 b cc) 25 (by decide)).symm

end Rounds

end Cert.KernelIdeal.Body

end
-- ==== Proof.BodyAccSq.lean ====
/- The second accumulator, round by round: after round j it holds the sum of the squares of the gathered blocks of the first j features. Each
  round's lemma opens that round's store value, uses the lemma of the round before for the value loaded back, reads the
  round's gathered block at an index (Proof/BodyCore.lean), and adds one term to the partial sum. -/
import proofs.«403098_j70935679861554_1_alg».proof.Proof.BodyCore

set_option maxRecDepth 16384

noncomputable section

namespace Cert.KernelIdeal.Body

open Cert.KernelIdeal Cert.KernelIdeal.Gen Idealize.ShloMosaic Idealize.ShloMosaic.TcCoe Idealize.ShloMosaic.ValueIdx
open Cert.FmMlp (hot partialSum)

section Rounds
variable (c : Dev nD) (arg2 : Memref sig .tc .vmem S512x26 .i32) (harg2 : arg2.IsWhole) (arg3 : Memref sig .tc .vmem S4823x129 .f32) (harg3 : arg3.IsWhole)
  (arg11 : Memref sig .tc .vmem S512x129 .f32) (x1 : Vec Ideal S512x26 .i32) (x2 : Vec Ideal S4823x129 .f32)

/-- Before the first round the accumulator holds zero: the empty sum. -/
theorem accq_0 (b : Fin 512) (cc : Fin 129) :
    kernelRun0_A.sl.v24 (F := Ideal) c arg11 (ix2 b cc) = partialSum (Rsq x1 x2 b cc) 0 := by
  unfold kernelRun0_A.sl.v24 kernelRun0_A.sl.HS2_1
  rw [readCov_cons_whole _ off00, View.ld_unit_zero (S := S512x129) off00, Cert.FmMlp.partialSum_zero]
  simp only [k0_pay3, shapeCast_self]
  exact Ideal.ofBits_zero_f32

/-- After round 1 the accumulator holds the sum of the squares of the gathered blocks of the first 1 features: what it held before the round plus feature 0's. -/
theorem accq_1 (b : Fin 512) (cc : Fin 129) :
    kernelRun0_A.sl.v47 (F := Ideal) c arg2 harg2 arg3 harg3 arg11 x1 x2 (ix2 b cc) = partialSum (Rsq x1 x2 b cc) 1 := by
  unfold kernelRun0_A.sl.v47 kernelRun0_A.sl.HS2_2
  rw [readCov_cons_whole _ off00, View.ld_unit_zero (S := S512x129) off00]
  open_round
  rw [addf_apply, accq_0 c arg11 x1 x2 b cc, mulf_apply, gather_apply, round_sum arg2 harg2 arg3 harg3 x1 x2 0 (by decide)]
  exact (Cert.FmMlp.partialSum_succ (Rsq x1 x2 b cc) 0 (by decide)).symm

/-- After round 2 the accumulator holds the sum of the squares of the gathered blocks of the first 2 features: what it held before the round plus feature 1's. -/
theorem accq_2 (b : Fin 512) (cc : Fin 129) :
    kernelRun0_A.sl.v70 (F := Ideal) c arg2 harg2 arg3 harg3 arg11 x1 x2 (ix2 b cc) = partialSum (Rsq x1 x2 b cc) 2 := by
  unfold kernelRun0_A.sl.v70 kernelRun0_A.sl.HS2_3
  rw [readCov_cons_whole _ off00, View.ld_unit_zero (S := S512x129) off00]
  open_round
  rw [addf_apply, accq_1 c arg2 harg2 arg3 harg3 arg11 x1 x2 b cc, mulf_apply, gather_apply, round_sum arg2 harg2 arg3 harg3 x1 x2 1 (by decide)]
  exact (Cert.FmMlp.partialSum_succ (Rsq x1 x2 b cc) 1 (by decide)).symm

/-- After round 3 the accumulator holds the sum of the squares of the gathered blocks of the first 3 features: what it held before the round plus feature 2's. -/
theorem accq_3 (b : Fin 512) (cc : Fin 129) :
    kernelRun0_A.sl.v93 (F := Ideal) c arg2 harg2 arg3 harg3 arg11 x1 x2 (ix2 b cc) = partialSum (Rsq x1 x2 b cc) 3 := by
  unfold kernelRun0_A.sl.v93 kernelRun0_A.sl.HS2_4
  rw [readCov_cons_whole _ off00, View.ld_unit_zero (S := S512x129) off00]
  open_round
  rw [addf_apply, accq_2 c arg2 harg2 arg3 harg3 arg11 x1 x2 b cc, mulf_apply, gather_apply, round_sum arg2 harg2 arg3 harg3 x1 x2 2 (by decide)]
  exact (Cert.FmMlp.partialSum_succ (Rsq x1 x2 b cc) 2 (by decide)).symm

/-- After round 4 the accumulator holds the sum of the squares of the gathered blocks of the first 4 features: what it held before the round plus feature 3's. -/
theorem accq_4 (b : Fin 512) (cc : Fin 129) :
    kernelRun0_A.sl.v116 (F := Ideal) c arg2 harg2 arg3 harg3 arg11 x1 x2 (ix2 b cc) = partialSum (Rsq x1 x2 b cc) 4 := by
  unfold kernelRun0_A.sl.v116 kernelRun0_A.sl.HS2_5
  rw [readCov_cons_whole _ off00, View.ld_unit_zero (S := S512x129) off00]
  open_round
  rw [addf_apply, accq_3 c arg2 harg2 arg3 harg3 arg11 x1 x2 b cc, mulf_apply, gather_apply, round_sum arg2 harg2 arg3 harg3 x1 x2 3 (by decide)]
  exact (Cert.FmMlp.partialSum_succ (Rsq x1 x2 b cc) 3 (by decide)).symm

/-- After round 5 the accumulator holds the sum of the squares of the gathered blocks of the first 5 features: what it held before the round plus feature 4's. -/
theorem accq_5 (b : Fin 512) (cc : Fin 129) :
    kernelRun0_A.sl.v139 (F := Ideal) c arg2 harg2 arg3 harg3 arg11 x1 x2 (ix2 b cc) = partialSum (Rsq x1 x2 b cc) 5 := by
  unfold kernelRun0_A.sl.v139 kernelRun0_A.sl.HS2_6
  rw [readCov_cons_whole _ off00, View.ld_unit_zero (S := S512x129) off00]
  open_round
  rw [addf_apply, accq_4 c arg2 harg2 arg3 harg3 arg11 x1 x2 b cc, mulf_apply, gather_apply, round_sum arg2 harg2 arg3 harg3 x1 x2 4 (by decide)]
  exact (Cert.FmMlp.partialSum_succ (Rsq x1 x2 b cc) 4 (by decide)).symm

/-- After round 6 the accumulator holds the sum of the squares of the gathered blocks of the first 6 features: what it held before the round plus feature 5's. -/
theorem accq_6 (b : Fin 512) (cc : Fin 129) :
    kernelRun0_A.sl.v162 (F := Ideal) c arg2 harg2 arg3 harg3 arg11 x1 x2 (ix2 b cc) = partialSum (Rsq x1 x2 b cc) 6 := by
  unfold kernelRun0_A.sl.v162 kernelRun0_A.sl.HS2_7
  rw [readCov_cons_whole _ off00, View.ld_unit_zero (S := S512x129) off00]
  open_round
  rw [addf_apply, accq_5 c arg2 harg2 arg3 harg3 arg11 x1 x2 b cc, mulf_apply, gather_apply, round_sum arg2 harg2 arg3 harg3 x1 x2 5 (by decide)]
  exact (Cert.FmMlp.partialSum_succ (Rsq x1 x2 b cc) 5 (by decide)).symm

/-- After round 7 the accumulator holds the sum of the squares of the gathered blocks of the first 7 features: what it held before the round plus feature 6's. -/
theorem accq_7 (b : Fin 512) (cc : Fin 129) :
    kernelRun0_A.sl.v185 (F := Ideal) c arg2 harg2 arg3 harg3 arg11 x1 x2 (ix2 b cc) = partialSum (Rsq x1 x2 b cc) 7 := by
  unfold kernelRun0_A.sl.v185 kernelRun0_A.sl.HS2_8
  rw [readCov_cons_whole _ off00, View.ld_unit_zero (S := S512x129) off00]
  open_round
  rw [addf_apply, accq_6 c arg2 harg2 arg3 harg3 arg11 x1 x2 b cc, mulf_apply, gather_apply, round_sum arg2 harg2 arg3 harg3 x1 x2 6 (by decide)]
  exact (Cert.FmMlp.partialSum_succ (Rsq x1 x2 b cc) 6 (by decide)).symm

/-- After round 8 the accumulator holds the sum of the squares of the gathered blocks of the first 8 features: what it held before the round plus feature 7's. -/
theorem accq_8 (b : Fin 512) (cc : Fin 129) :
    kernelRun0_A.sl.v208 (F := Ideal) c arg2 harg2 arg3 harg3 arg11 x1 x2 (ix2 b cc) = partialSum (Rsq x1 x2 b cc) 8 := by
  unfold kernelRun0_A.sl.v208 kernelRun0_A.sl.HS2_9
  rw [readCov_cons_whole _ off00, View.ld_unit_zero (S := S512x129) off00]
  open_round
  rw [addf_apply, accq_7 c arg2 harg2 arg3 harg3 arg11 x1 x2 b cc, mulf_apply, gather_apply, round_sum arg2 harg2 arg3 harg3 x1 x2 7 (by decide)]
  exact (Cert.FmMlp.partialSum_succ (Rsq x1 x2 b cc) 7 (by decide)).symm

/-- After round 9 the accumulator holds the sum of the squares of the gathered blocks of the first 9 features: what it held before the round plus feature 8's. -/
theorem accq_9 (b : Fin 512) (cc : Fin 129) :
    kernelRun0_A.sl.v231 (F := Ideal) c arg2 harg2 arg3 harg3 arg11 x1 x2 (ix2 b cc) = partialSum (Rsq x1 x2 b cc) 9 := by
  unfold kernelRun0_A.sl.v231 kernelRun0_A.sl.HS2_10
  rw [readCov_cons_whole _ off00, View.ld_unit_zero (S := S512x129) off00]
  open_round
  rw [addf_apply, accq_8 c arg2 harg2 arg3 harg3 arg11 x1 x2 b cc, mulf_apply, gather_apply, round_sum arg2 harg2 arg3 harg3 x1 x2 8 (by decide)]
  exact (Cert.FmMlp.partialSum_succ (Rsq x1 x2 b cc) 8 (by decide)).symm

/-- After round 10 the accumulator holds the sum of the squares of the gathered blocks of the first 10 features: what it held before the round plus feature 9's. -/
theorem accq_10 (b : Fin 512) (cc : Fin 129) :
    kernelRun0_A.sl.v254 (F := Ideal) c arg2 harg2 arg3 harg3 arg11 x1 x2 (ix2 b cc) = partialSum (Rsq x1 x2 b cc) 10 := by
  unfold kernelRun0_A.sl.v254 kernelRun0_A.sl.HS2_11
  rw [readCov_cons_whole _ off00, View.ld_unit_zero (S := S512x129) off00]
  open_round
  rw [addf_apply, accq_9 c arg2 harg2 arg3 harg3 arg11 x1 x2 b cc, mulf_apply, gather_apply, round_sum arg2 harg2 arg3 harg3 x1 x2 9 (by decide)]
  exact (Cert.FmMlp.partialSum_succ (Rsq x1 x2 b cc) 9 (by decide)).symm

/-- After round 11 the accumulator holds the sum of the squares of the gathered blocks of the first 11 features: what it held before the round plus feature 10's. -/
theorem accq_11 (b : Fin 512) (cc : Fin 129) :
    kernelRun0_A.sl.v277 (F := Ideal) c arg2 harg2 arg3 harg3 arg11 x1 x2 (ix2 b cc) = partialSum (Rsq x1 x2 b cc) 11 := by
  unfold kernelRun0_A.sl.v277 kernelRun0_A.sl.HS2_12
  rw [readCov_cons_whole _ off00, View.ld_unit_zero (S := S512x129) off00]
  open_round
  rw [addf_apply, accq_10 c arg2 harg2 arg3 harg3 arg11 x1 x2 b cc, mulf_apply, gather_apply, round_sum arg2 harg2 arg3 harg3 x1 x2 10 (by decide)]
  exact (Cert.FmMlp.partialSum_succ (Rsq x1 x2 b cc) 10 (by decide)).symm

/-- After round 12 the accumulator holds the sum of the squares of the gathered blocks of the first 12 features: what it held before the round plus feature 11's. -/
theorem accq_12 (b : Fin 512) (cc : Fin 129) :
    kernelRun0_A.sl.v300 (F := Ideal) c arg2 harg2 arg3 harg3 arg11 x1 x2 (ix2 b cc) = partialSum (Rsq x1 x2 b cc) 12 := by
  unfold kernelRun0_A.sl.v300 kernelRun0_A.sl.HS2_13
  rw [readCov_cons_whole _ off00, View.ld_unit_zero (S := S512x129) off00]
  open_round
  rw [addf_apply, accq_11 c arg2 harg2 arg3 harg3 arg11 x1 x2 b cc, mulf_apply, gather_apply, round_sum arg2 harg2 arg3 harg3 x1 x2 11 (by decide)]
  exact (Cert.FmMlp.partialSum_succ (Rsq x1 x2 b cc) 11 (by decide)).symm

/-- After round 13 the accumulator holds the sum of the squares of the gathered blocks of the first 13 features: what it held before the round plus feature 12's. -/
theorem accq_13 (b : Fin 512) (cc : Fin 129) :
    kernelRun0_A.sl.v323 (F := Ideal) c arg2 harg2 arg3 harg3 arg11 x1 x2 (ix2 b cc) = partialSum (Rsq x1 x2 b cc) 13 := by
  unfold kernelRun0_A.sl.v323 kernelRun0_A.sl.HS2_14
  rw [readCov_cons_whole _ off00, View.ld_unit_zero (S := S512x129) off00]
  open_round
  rw [addf_apply, accq_12 c arg2 harg2 arg3 harg3 arg11 x1 x2 b cc, mulf_apply, gather_apply, round_sum arg2 harg2 arg3 harg3 x1 x2 12 (by decide)]
  exact (Cert.FmMlp.partialSum_succ (Rsq x1 x2 b cc) 12 (by decide)).symm

/-- After round 14 the accumulator holds the sum of the squares of the gathered blocks of the first 14 features: what it held before the round plus feature 13's. -/
theorem accq_14 (b : Fin 512) (cc : Fin 129) :
    kernelRun0_A.sl.v346 (F := Ideal) c arg2 harg2 arg3 harg3 arg11 x1 x2 (ix2 b cc) = partialSum (Rsq x1 x2 b cc) 14 := by
  unfold kernelRun0_A.sl.v346 kernelRun0_A.sl.HS2_15
  rw [readCov_cons_whole _ off00, View.ld_unit_zero (S := S512x129) off00]
  open_round
  rw [addf_apply, accq_13 c arg2 harg2 arg3 harg3 arg11 x1 x2 b cc, mulf_apply, gather_apply, round_sum arg2 harg2 arg3 harg3 x1 x2 13 (by decide)]
  exact (Cert.FmMlp.partialSum_succ (Rsq x1 x2 b cc) 13 (by decide)).symm

/-- After round 15 the accumulator holds the sum of the squares of the gathered blocks of the first 15 features: what it held before the round plus feature 14's. -/
theorem accq_15 (b : Fin 512) (cc : Fin 129) :
    kernelRun0_A.sl.v369 (F := Ideal) c arg2 harg2 arg3 harg3 arg11 x1 x2 (ix2 b cc) = partialSum (Rsq x1 x2 b cc) 15 := by
  unfold kernelRun0_A.sl.v369 kernelRun0_A.sl.HS2_16
  rw [readCov_cons_whole _ off00, View.ld_unit_zero (S := S512x129) off00]
  open_round
  rw [addf_apply, accq_14 c arg2 harg2 arg3 harg3 arg11 x1 x2 b cc, mulf_apply, gather_apply, round_sum arg2 harg2 arg3 harg3 x1 x2 14 (by decide)]
  exact (Cert.FmMlp.partialSum_succ (Rsq x1 x2 b cc) 14 (by decide)).symm

/-- After round 16 the accumulator holds the sum of the squares of the gathered blocks of the first 16 features: what it held before the round plus feature 15's. -/
theorem accq_16 (b : Fin 512) (cc : Fin 129) :
    kernelRun0_A.sl.v392 (F := Ideal) c arg2 harg2 arg3 harg3 arg11 x1 x2 (ix2 b cc) = partialSum (Rsq x1 x2 b cc) 16 := by
  unfold kernelRun0_A.sl.v392 kernelRun0_A.sl.HS2_17
  rw [readCov_cons_whole _ off00, View.ld_unit_zero (S := S512x129) off00]
  open_round
  rw [addf_apply, accq_15 c arg2 harg2 arg3 harg3 arg11 x1 x2 b cc, mulf_apply, gather_apply, round_sum arg2 harg2 arg3 harg3 x1 x2 15 (by decide)]
  exact (Cert.FmMlp.partialSum_succ (Rsq x1 x2 b cc) 15 (by decide)).symm

/-- After round 17 the accumulator holds the sum of the squares of the gathered blocks of the first 17 features: what it held before the round plus feature 16's. -/
theorem accq_17 (b : Fin 512) (cc : Fin 129) :
    kernelRun0_A.sl.v415 (F := Ideal) c arg2 harg2 arg3 harg3 arg11 x1 x2 (ix2 b cc) = partialSum (Rsq x1 x2 b cc) 17 := by
  unfold kernelRun0_A.sl.v415 kernelRun0_A.sl.HS2_18
  rw [readCov_cons_whole _ off00, View.ld_unit_zero (S := S512x129) off00]
  open_round
  rw [addf_apply, accq_16 c arg2 harg2 arg3 harg3 arg11 x1 x2 b cc, mulf_apply, gather_apply, round_sum arg2 harg2 arg3 harg3 x1 x2 16 (by decide)]
  exact (Cert.FmMlp.partialSum_succ (Rsq x1 x2 b cc) 16 (by decide)).symm

/-- After round 18 the accumulator holds the sum of the squares of the gathered blocks of the first 18 features: what it held before the round plus feature 17's. -/
theorem accq_18 (b : Fin 512) (cc : Fin 129) :
    kernelRun0_A.sl.v438 (F := Ideal) c arg2 harg2 arg3 harg3 arg11 x1 x2 (ix2 b cc) = partialSum (Rsq x1 x2 b cc) 18 := by
  unfold kernelRun0_A.sl.v438 kernelRun0_A.sl.HS2_19
  rw [readCov_cons_whole _ off00, View.ld_unit_zero (S := S512x129) off00]
  open_round
  rw [addf_apply, accq_17 c arg2 harg2 arg3 harg3 arg11 x1 x2 b cc, mulf_apply, gather_apply, round_sum arg2 harg2 arg3 harg3 x1 x2 17 (by decide)]
  exact (Cert.FmMlp.partialSum_succ (Rsq x1 x2 b cc) 17 (by decide)).symm

/-- After round 19 the accumulator holds the sum of the squares of the gathered blocks of the first 19 features: what it held before the round plus feature 18's. -/
theorem accq_19 (b : Fin 512) (cc : Fin 129) :
    kernelRun0_A.sl.v461 (F := Ideal) c arg2 harg2 arg3 harg3 arg11 x1 x2 (ix2 b cc) = partialSum (Rsq x1 x2 b cc) 19 := by
  unfold kernelRun0_A.sl.v461 kernelRun0_A.sl.HS2_20
  rw [readCov_cons_whole _ off00, View.ld_unit_zero (S := S512x129) off00]
  open_round
  rw [addf_apply, accq_18 c arg2 harg2 arg3 harg3 arg11 x1 x2 b cc, mulf_apply, gather_apply, round_sum arg2 harg2 arg3 harg3 x1 x2 18 (by decide)]
  exact (Cert.FmMlp.partialSum_succ (Rsq x1 x2 b cc) 18 (by decide)).symm

/-- After round 20 the accumulator holds the sum of the squares of the gathered blocks of the first 20 features: what it held before the round plus feature 19's. -/
theorem accq_20 (b : Fin 512) (cc : Fin 129) :
    kernelRun0_A.sl.v484 (F := Ideal) c arg2 harg2 arg3 harg3 arg11 x1 x2 (ix2 b cc) = partialSum (Rsq x1 x2 b cc) 20 := by
  unfold kernelRun0_A.sl.v484 kernelRun0_A.sl.HS2_21
  rw [readCov_cons_whole _ off00, View.ld_unit_zero (S := S512x129) off00]
  open_round
  rw [addf_apply, accq_19 c arg2 harg2 arg3 harg3 arg11 x1 x2 b cc, mulf_apply, gather_apply, round_sum arg2 harg2 arg3 harg3 x1 x2 19 (by decide)]
  exact (Cert.FmMlp.partialSum_succ (Rsq x1 x2 b cc) 19 (by decide)).symm

/-- After round 21 the accumulator holds the sum of the squares of the gathered blocks of the first 21 features: what it held before the round plus feature 20's. -/
theorem accq_21 (b : Fin 512) (cc : Fin 129) :
    kernelRun0_A.sl.v507 (F := Ideal) c arg2 harg2 arg3 harg3 arg11 x1 x2 (ix2 b cc) = partialSum (Rsq x1 x2 b cc) 21 := by
  unfold kernelRun0_A.sl.v507 kernelRun0_A.sl.HS2_22
  rw [readCov_cons_whole _ off00, View.ld_unit_zero (S := S512x129) off00]
  open_round
  rw [addf_apply, accq_20 c arg2 harg2 arg3 harg3 arg11 x1 x2 b cc, mulf_apply, gather_apply, round_sum arg2 harg2 arg3 harg3 x1 x2 20 (by decide)]
  exact (Cert.FmMlp.partialSum_succ (Rsq x1 x2 b cc) 20 (by decide)).symm

/-- After round 22 the accumulator holds the sum of the squares of the gathered blocks of the first 22 features: what it held before the round plus feature 21's. -/
theorem accq_22 (b : Fin 512) (cc : Fin 129) :
    kernelRun0_A.sl.v530 (F := Ideal) c arg2 harg2 arg3 harg3 arg11 x1 x2 (ix2 b cc) = partialSum (Rsq x1 x2 b cc) 22 := by
  unfold kernelRun0_A.sl.v530 kernelRun0_A.sl.HS2_23
  rw [readCov_cons_whole _ off00, View.ld_unit_zero (S := S512x129) off00]
  open_round
  rw [addf_apply, accq_21 c arg2 harg2 arg3 harg3 arg11 x1 x2 b cc, mulf_apply, gather_apply, round_sum arg2 harg2 arg3 harg3 x1 x2 21 (by decide)]
  exact (Cert.FmMlp.partialSum_succ (Rsq x1 x2 b cc) 21 (by decide)).symm

/-- After round 23 the accumulator holds the sum of the squares of the gathered blocks of the first 23 features: what it held before the round plus feature 22's. -/
theorem accq_23 (b : Fin 512) (cc : Fin 129) :
    kernelRun0_A.sl.v553 (F := Ideal) c arg2 harg2 arg3 harg3 arg11 x1 x2 (ix2 b cc) = partialSum (Rsq x1 x2 b cc) 23 := by
  unfold kernelRun0_A.sl.v553 kernelRun0_A.sl.HS2_24
  rw [readCov_cons_whole _ off00, View.ld_unit_zero (S := S512x129) off00]
  open_round
  rw [addf_apply, accq_22 c arg2 harg2 arg3 harg3 arg11 x1 x2 b cc, mulf_apply, gather_apply, round_sum arg2 harg2 arg3 harg3 x1 x2 22 (by decide)]
  exact (Cert.FmMlp.partialSum_succ (Rsq x1 x2 b cc) 22 (by decide)).symm

/-- After round 24 the accumulator holds the sum of the squares of the gathered blocks of the first 24 features: what it held before the round plus feature 23's. -/
theorem accq_24 (b : Fin 512) (cc : Fin 129) :
    kernelRun0_A.sl.v576 (F := Ideal) c arg2 harg2 arg3 harg3 arg11 x1 x2 (ix2 b cc) = partialSum (Rsq x1 x2 b cc) 24 := by
  unfold kernelRun0_A.sl.v576 kernelRun0_A.sl.HS2_25
  rw [readCov_cons_whole _ off00, View.ld_unit_zero (S := S512x129) off00]
  open_round
  rw [addf_apply, accq_23 c arg2 harg2 arg3 harg3 arg11 x1 x2 b cc, mulf_apply, gather_apply, round_sum arg2 harg2 arg3 harg3 x1 x2 23 (by decide)]
  exact (Cert.FmMlp.partialSum_succ (Rsq x1 x2 b cc) 23 (by decide)).symm

/-- After round 25 the accumulator holds the sum of the squares of the gathered blocks of the first 25 features: what it held before the round plus feature 24's. -/
theorem accq_25 (b : Fin 512) (cc : Fin 129) :
    kernelRun0_A.sl.v599 (F := Ideal) c arg2 harg2 arg3 harg3 arg11 x1 x2 (ix2 b cc) = partialSum (Rsq x1 x2 b cc) 25 := by
  unfold kernelRun0_A.sl.v599 kernelRun0_A.sl.HS2_26
  rw [readCov_cons_whole _ off00, View.ld_unit_zero (S := S512x129) off00]
  open_round
  rw [addf_apply, accq_24 c arg2 harg2 arg3 harg3 arg11 x1 x2 b cc, mulf_apply, gather_apply, round_sum arg2 harg2 arg3 harg3 x1 x2 24 (by decide)]
  exact (Cert.FmMlp.partialSum_succ (Rsq x1 x2 b cc) 24 (by decide)).symm

/-- After the last round the accumulator's contents are the sum of the squares of the gathered blocks of all 26 features. -/
theorem accq_26 (b : Fin 512) (cc : Fin 129) :
    View.canon (kernelRun0_A.sl.HS2_27 (F := Ideal) c arg2 harg2 arg3 harg3 arg11 x1 x2) (ix2 b cc) = partialSum (Rsq x1 x2 b cc) 26 := by
  unfold kernelRun0_A.sl.HS2_27
  rw [View.canon_cons_unit_zero off00]
  open_round
  rw [addf_apply, accq_25 c arg2 harg2 arg3 harg3 arg11 x1 x2 b cc, mulf_apply, gather_apply, round_sum arg2 harg2 arg3 harg3 x1 x2 25 (by decide)]
  exact (Cert.FmMlp.partialSum_succ (Rsq x1 x2 b cc) 25 (by decide)).symm

end Rounds

end Cert.KernelIdeal.Body

end
-- ==== Proof.BodyFlat.lean ====
/-
  The row buffer after the 26 rounds. Round t writes columns 0 … 127 of its gathered block into columns
  128 t … 128 t + 127, so the 26 stores tile the 512 × 3328 buffer and it reads back as ONE function of the index:
  at (b, q) the gathered block of feature q / 128 at (b, q % 128).
-/
import proofs.«403098_j70935679861554_1_alg».proof.Proof.BodyCore

set_option maxRecDepth 16384

noncomputable section

namespace Cert.KernelIdeal.Body

open Cert.KernelIdeal Cert.KernelIdeal.Gen Idealize.ShloMosaic Idealize.ShloMosaic.TcCoe Idealize.ShloMosaic.ValueIdx Idealize.ShloMosaic.Tactic
open Cert.FmMlp (hot partialSum)

/-- The row buffer's contents as one function of the index. -/
def flatG (x1 : Vec Ideal S512x26 .i32) (x2 : Vec Ideal S4823x129 .f32) (y : S512x3328.Idx) : EReal :=
  R x1 x2 (y 0) ⟨(y 1).val % 128, lt_of_lt_of_le (Nat.mod_lt _ (by decide)) (by decide)⟩
    ⟨(y 1).val / 128, by have := idx2_lt1 y; omega⟩

/-- The gathered block depends on its three coordinates only through their values. -/
theorem R_congr (x1 : Vec Ideal S512x26 .i32) (x2 : Vec Ideal S4823x129 .f32) {b b' : Fin 512} {cc cc' : Fin 129} {t t' : Fin 26}
    (hb : b = b') (hc : cc = cc') (ht : t = t') : R x1 x2 b cc t = R x1 x2 b' cc' t' := by
  subst hb; subst hc; subst ht; rfl

section Flat
variable (c : Dev nD) (arg2 : Memref sig .tc .vmem S512x26 .i32) (harg2 : arg2.IsWhole) (arg3 : Memref sig .tc .vmem S4823x129 .f32) (harg3 : arg3.IsWhole)
  (arg9 : Memref sig .tc .vmem S512x3328 .bf16) (x1 : Vec Ideal S512x26 .i32) (x2 : Vec Ideal S4823x129 .f32)

/-- ONE COLUMN SLAB. The value round s stores at column offset o = 128 s — columns 0 … 127 of the round's gathered
    block, narrowed — is, at every index of the slab, the buffer function at the index the slab puts it. -/
theorem slab (s : ℕ) (hs : s < 26) (o : ℕ) (ho : o = 128 * s)
    (inbp : ∀ a : Fin S512x3328.rank, (![0, o] : Fin 2 → ℕ) a + (![512, 128] : Fin 2 → ℕ) a ≤ S512x3328.size a)
    (inb2 : ∀ a : Fin S512x26.rank, (![0, s] : Fin 2 → ℕ) a + (![512, 1] : Fin 2 → ℕ) a ≤ S512x26.size a)
    (inb3 : ∀ a : Fin S4823x129.rank, (![0, 0] : Fin 2 → ℕ) a + (![4823, 129] : Fin 2 → ℕ) a ≤ S4823x129.size a)
    (h1 : S512x1.Broadcasts S512x4823) (h2 : S512x4823.Iotas .tc 32 [1]) (h3 : 1 < 32) (h4 h4' h5 : FTy.bf16.bits < FTy.f32.bits)
    (hsl : S512x129.Slices ![0, 0] S512x128)
    (x : (Rect.unit (s := S512x3328) ![0, o] ![512, 128] inbp).shape.Idx) :
    (truncf (F := Ideal) .bf16 (extractStridedSlice S512x128 ![0, 0]
        (matmul dot_S512x4823_S4823x129_S512x129_1_0_0_1_n_n none
          (truncf .bf16 (sitofp .f32 (extui 32 (cmpi .eq (broadcastTo S512x4823 (View.readAt (Elt Ideal) arg2.view (Rect.unit (s := S512x26) ![0, s] ![512, 1] inb2).toLoadRect (harg2.unread x1)) h1) (iota .tc S512x4823 32 [1] h2)) h3) : FVec Ideal S512x4823 .f32) h4)
          (truncf .bf16 (View.readAt (Elt Ideal) arg3.view (Rect.unit (s := S4823x129) ![0, 0] ![4823, 129] inb3).toLoadRect (harg3.unread x2) : FVec Ideal S4823x129 .f32) h4')
          (constant S512x129 .f32 0x00000000#32)) hsl : FVec Ideal S512x128 .f32) h5 x : EReal)
      = flatG x1 x2 ((Rect.unit (s := S512x3328) ![0, o] ![512, 128] inbp).emb x) := by
  obtain ⟨b, e, rfl⟩ : ∃ (b : Fin 512) (e : Fin 128), x = ix2 b e := ⟨x 0, x 1, eq_ix2 x⟩
  have e0 : ((Rect.unit (s := S512x3328) ![0, o] ![512, 128] inbp).emb (ix2 b e)) 0 = b :=
    Fin.ext (by show 0 + 1 * b.val = b.val; omega)
  have e1 : (((Rect.unit (s := S512x3328) ![0, o] ![512, 128] inbp).emb (ix2 b e)) 1).val = o + e.val := by
    show o + 1 * e.val = o + e.val; omega
  rw [truncf_apply, extractStridedSlice_apply ![0, 0] _ hsl (ix2 b e) (ix2 b (Fin.castLE (by decide) e)) (fun a => by
        match a with
        | ⟨0, _⟩ => show b.val = 0 + b.val; omega
        | ⟨1, _⟩ => show e.val = 0 + e.val; omega),
    gather_apply, round_sum arg2 harg2 arg3 harg3 x1 x2 s hs]
  unfold flatG
  refine R_congr x1 x2 e0.symm (Fin.ext ?_) (Fin.ext ?_)
  · show e.val = (((Rect.unit (s := S512x3328) ![0, o] ![512, 128] inbp).emb (ix2 b e)) 1).val % 128
    rw [e1, ho]; have := e.isLt; omega
  · show s = (((Rect.unit (s := S512x3328) ![0, o] ![512, 128] inbp).emb (ix2 b e)) 1).val / 128
    rw [e1, ho]; have := e.isLt; omega

/-- THE ROW BUFFER READ BACK: after the 26 rounds a load of the whole buffer reads, at (b, q), the gathered block of
    feature q / 128 at (b, q % 128). -/
theorem flat_read (b : Fin 512) (q : Fin 3328) :
    (kernelRun0_A.sl.v629 (F := Ideal) c arg2 harg2 arg3 harg3 arg9 x1 x2 (ix2 b q) : EReal) = flatG x1 x2 (ix2 b q) := by
  have hcover : ∀ y : S512x3328.Idx, ∃ p ∈ kernelRun0_A.sl.HS0_26 (F := Ideal) c arg2 harg2 arg3 harg3 x1 x2, y ∈ p.1.set :=
    View.cover_of_tiledL _ S512x128.size (by sl_kernel_rfl)
  have hpieces : ∀ p ∈ kernelRun0_A.sl.HS0_26 (F := Ideal) c arg2 harg2 arg3 harg3 x1 x2,
      ∀ x : p.1.shape.Idx, p.2 x = flatG x1 x2 (p.1.emb x) := by
    unfold kernelRun0_A.sl.HS0_26
    intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl
    all_goals
      intro x
      dsimp only
      open_round
      exact slab arg2 harg2 arg3 harg3 x1 x2 _ (by decide) _ (by decide) _ _ _ _ _ _ _ _ _ _ x
  unfold kernelRun0_A.sl.v629
  rw [View.readCov_eq_canon_ld _ _ _ hcover, View.ld_unit_zero (S := S512x3328) off00]
  exact View.canon_apply_of_pieces (flatG x1 x2) _ hpieces (ix2 b q) (hcover _)

end Flat

end Cert.KernelIdeal.Body

end
-- ==== Proof.KernelBody.lean ====
/-
  What the kernel's body leaves in the output block at one grid point, as a function of the point's seven input blocks:
  the batch score of Proof/Spec.lean at 512 rows, the gathered rows formed by the indicator against the joined table.

  After the 26 rounds the first accumulator holds, per column, the sum over the features of the gathered blocks
  (Proof/BodyAcc.lean), the second the sum of their squares (Proof/BodyAccSq.lean), and the row buffer the 26 blocks side by
  side (Proof/BodyFlat.lean). The rest of the body reads these back: the pairwise part is half the lane sum of
  (sum)² − (sum of squares) over columns 0 … 127; the linear part is the dense features against their weights plus
  column 128 of the first accumulator; the deep part is three matrix products over the row buffer with a cut-off at 0
  after the first two; and the stored value is the logistic function of (linear + pairwise) + deep. Each matrix product
  into the zero accumulator is a plain sum over its contraction coordinate (Proof/LibPlainDot.lean); a change of float
  format is the identity on the extended reals.
-/
import proofs.«403098_j70935679861554_1_alg».proof.Proof.BodyAcc
import proofs.«403098_j70935679861554_1_alg».proof.Proof.BodyAccSq
import proofs.«403098_j70935679861554_1_alg».proof.Proof.BodyFlat

set_option maxRecDepth 16384

noncomputable section

namespace Cert.KernelIdeal.Body

open Cert.KernelIdeal Cert.KernelIdeal.Gen Idealize.ShloMosaic Idealize.ShloMosaic.TcCoe Idealize.ShloMosaic.ValueIdx
open Cert.FmMlp (hot partialSum)

section Tail
variable (c : Dev nD) (i : grid0.Coords) (arg1 : Memref sig .tc .vmem S512x13 .f32) (harg1 : arg1.IsWhole) (arg2 : Memref sig .tc .vmem S512x26 .i32) (harg2 : arg2.IsWhole) (arg3 : Memref sig .tc .vmem S4823x129 .f32) (harg3 : arg3.IsWhole) (arg4 : Memref sig .tc .vmem S13x1 .f32) (harg4 : arg4.IsWhole) (arg5 : Memref sig .tc .vmem S3328x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S512x1 .f32) (harg8 : arg8.IsWhole) (arg9 : Memref sig .tc .vmem S512x3328 .bf16) (harg9 : arg9.IsWhole) (arg10 : Memref sig .tc .vmem S512x129 .f32) (harg10 : arg10.IsWhole) (arg11 : Memref sig .tc .vmem S512x129 .f32) (harg11 : arg11.IsWhole)
  (x0 : Vec Ideal S512x13 .f32) (x1 : Vec Ideal S512x26 .i32) (x2 : Vec Ideal S4823x129 .f32) (x3 : Vec Ideal S13x1 .f32)
  (x4 : Vec Ideal S3328x256 .f32) (x5 : Vec Ideal S256x256 .f32) (x6 : Vec Ideal S256x1 .f32)

/-- After the last round, columns 0 … 127 of the first accumulator hold the sums of the gathered blocks. -/
theorem acc_lo (b : Fin 512) (e : Fin 128) :
    kernelRun0_A.sl.v610 (F := Ideal) c arg2 harg2 arg3 harg3 arg10 x1 x2 (ix2 b e)
      = ∑ t, R x1 x2 b (Fin.castLE (by decide) e) t := by
  have h26 := acc_26 c arg2 harg2 arg3 harg3 arg10 x1 x2 b (Fin.castLE (by decide) e)
  unfold kernelRun0_A.sl.v610
  unfold kernelRun0_A.sl.HS1_27 at h26 ⊢
  rw [readCov_of_whole_head _ off00]
  refine (congrArg (View.canon _) (funext fun a => Fin.ext ?_ : _ = ix2 b (Fin.castLE (by decide) e))).trans
    (h26.trans (Cert.FmMlp.partialSum_all _))
  match a with
  | ⟨0, _⟩ => show 0 + 1 * b.val = b.val; omega
  | ⟨1, _⟩ => show 0 + 1 * e.val = e.val; omega

/-- … and column 128 the sums of the narrow table's entries. -/
theorem acc_hi (b : Fin 512) :
    kernelRun0_A.sl.v612 (F := Ideal) c arg2 harg2 arg3 harg3 arg10 x1 x2 (ix2 b (0 : Fin 1))
      = ∑ t, R x1 x2 b ⟨128, by decide⟩ t := by
  have h26 := acc_26 c arg2 harg2 arg3 harg3 arg10 x1 x2 b ⟨128, by decide⟩
  unfold kernelRun0_A.sl.v612
  unfold kernelRun0_A.sl.HS1_27 at h26 ⊢
  rw [readCov_of_whole_head _ off00]
  refine (congrArg (View.canon _) (funext fun a => Fin.ext ?_ : _ = ix2 b (⟨128, by decide⟩ : Fin 129))).trans
    (h26.trans (Cert.FmMlp.partialSum_all _))
  match a with
  | ⟨0, _⟩ => show 0 + 1 * b.val = b.val; omega
  | ⟨1, _⟩ => show 128 + 1 * 0 = 128; omega

/-- Columns 0 … 127 of the second accumulator hold the sums of the squares. -/
theorem accq_lo (b : Fin 512) (e : Fin 128) :
    kernelRun0_A.sl.v611 (F := Ideal) c arg2 harg2 arg3 harg3 arg11 x1 x2 (ix2 b e)
      = ∑ t, Rsq x1 x2 b (Fin.castLE (by decide) e) t := by
  have h26 := accq_26 c arg2 harg2 arg3 harg3 arg11 x1 x2 b (Fin.castLE (by decide) e)
  unfold kernelRun0_A.sl.v611
  unfold kernelRun0_A.sl.HS2_27 at h26 ⊢
  rw [readCov_of_whole_head _ off00]
  refine (congrArg (View.canon _) (funext fun a => Fin.ext ?_ : _ = ix2 b (Fin.castLE (by decide) e))).trans
    (h26.trans (Cert.FmMlp.partialSum_all _))
  match a with
  | ⟨0, _⟩ => show 0 + 1 * b.val = b.val; omega
  | ⟨1, _⟩ => show 0 + 1 * e.val = e.val; omega

/-! ## The rest of the body -/

/-- A sum over the 128 lanes of a 512 × 128 block, at row b. -/
theorem lane_sum (src : FVec Ideal S512x128 .f32) (h : S512x128.Reduces [1] S512) (hφ : FKind.Formats .f32)
    (hacc : (0x00000000#32 : BitVec 32) = FKind.add.neutral .f32 hφ) (b : Fin 512) :
    multiReduction .add [1] S512 src 0x00000000#32 h hφ hacc (ix1 b) = ∑ e : Fin 128, src (ix2 b e) := by
  rw [Ideal.multiReduction_add_single]
  exact Finset.sum_congr rfl fun e _ => congrArg src (funext fun a => Fin.ext (by
    match a with
    | ⟨0, _⟩ => rfl
    | ⟨1, _⟩ => rfl))

/-- A length-512 vector recast as a 512 × 1 column reads, at (b, 0), the vector at b. -/
theorem col_cast (v : FVec Ideal S512 .f32) (h : S512.ShapeCasts S512x1) (b : Fin 512) :
    shapeCast S512x1 v h (ix2 b (0 : Fin 1)) = v (ix1 b) :=
  shapeCast_apply v h _ _ (by
    rw [Shape.rowMajor_val_one, Shape.rowMajor_val_two]
    show b.val = b.val * 1 + 0
    omega)

/-- A block loaded whole is the block. -/
theorem load_whole2 {d : Fin 2 → ℕ} {e : EltTy} (m : Memref sig .tc .vmem ⟨2, d⟩ e) (hm : m.IsWhole) (x : Vec Ideal ⟨2, d⟩ e)
    (inb : ∀ a : Fin (⟨2, d⟩ : Shape).rank, (![0, 0] : Fin 2 → ℕ) a + d a ≤ (⟨2, d⟩ : Shape).size a) :
    View.readAt (Elt Ideal) m.view (Rect.unit (s := ⟨2, d⟩) ![0, 0] d inb).toLoadRect (hm.unread x) = x := by
  rw [View.readAt_eq_ld, hm.read_unread]
  exact View.ld_unit_zero (S := ⟨2, d⟩) off00 inb x

/-- THE PAIRWISE PART at row b: half the sum over the 128 columns of (sum of gathered entries)² − sum of their squares. -/
theorem pair_read (b : Fin 512) :
    kernelRun0_A.sl.r_21 (F := Ideal) c arg2 harg2 arg3 harg3 arg10 arg11 x1 x2 (ix2 b (0 : Fin 1))
      = Cert.FmMlp.half * ∑ e : Fin 128,
          ((∑ t, R x1 x2 b (Fin.castLE (by decide) e) t) * (∑ t, R x1 x2 b (Fin.castLE (by decide) e) t)
            - ∑ t, Rsq x1 x2 b (Fin.castLE (by decide) e) t) := by
  unfold kernelRun0_A.sl.r_21
  simp only [k0_pay117]
  rw [mulf_apply, broadcast_apply, col_cast]
  refine congrArg (Cert.FmMlp.half * ·) ((lane_sum _ _ _ _ b).trans (Finset.sum_congr rfl fun e _ => ?_))
  rw [subf_apply, mulf_apply, acc_lo, accq_lo]

/-- THE LINEAR PART at row b: the dense features against their weights, plus the sum of the narrow table's gathered
    entries. -/
theorem lin_read (b : Fin 512) :
    kernelRun0_A.sl.r_22 (F := Ideal) c arg1 harg1 arg2 harg2 arg3 harg3 arg4 harg4 arg10 x0 x1 x2 x3 (ix2 b (0 : Fin 1))
      = (∑ k : Fin 13, x0 (ix2 b k) * x3 (ix2 k (0 : Fin 1))) + ∑ t, R x1 x2 b ⟨128, by decide⟩ t := by
  unfold kernelRun0_A.sl.r_22
  simp only [k0_pay118, shapeCast_self]
  rw [addf_apply, acc_hi]
  refine congrArg (· + _) ?_
  refine (Cert.Lib.PlainDot.matmul_plain_zero_ix2 512 13 1 none _ _ b 0).trans (Finset.sum_congr rfl fun k _ => ?_)
  rw [truncf_apply, truncf_apply, load_whole2 arg1 harg1 x0, load_whole2 arg4 harg4 x3]

/-- THE FIRST HIDDEN LAYER at (b, j): the row buffer's row b against column j of the first weights, cut off below at 0. -/
theorem hidden1_read (b : Fin 512) (j : Fin 256) :
    (kernelRun0_A.sl.r_23 (F := Ideal) c arg2 harg2 arg3 harg3 arg5 harg5 arg9 x1 x2 x4 (ix2 b j) : EReal)
      = max (∑ q : Fin 3328, flatG x1 x2 (ix2 b q) * x4 (ix2 q j)) 0 := by
  unfold kernelRun0_A.sl.r_23
  simp only [k0_pay119, shapeCast_self]
  rw [truncf_apply, maximumf_apply, broadcast_apply]
  refine congrArg₂ max ?_ Ideal.ofBits_zero_f32
  refine (Cert.Lib.PlainDot.matmul_plain_zero_ix2 512 3328 256 none _ _ b j).trans (Finset.sum_congr rfl fun q _ => ?_)
  rw [flat_read, truncf_apply, load_whole2 arg5 harg5 x4]

/-- THE BODY'S OUTPUT BLOCK is the 512-row batch score of its input blocks. -/
theorem body_eq :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6
      = Cert.FmMlp.rowsVal (R := 512) x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero off00]
  funext y
  obtain ⟨b, z, rfl⟩ : ∃ (b : Fin 512) (z : Fin 1), y = ix2 b z := ⟨y 0, y 1, eq_ix2 y⟩
  obtain rfl : z = 0 := Subsingleton.elim _ _
  simp only [k0_pay1, shapeCast_self]
  unfold Cert.FmMlp.rowsVal Cert.FmMlp.rowVal
  refine congrArg Ideal.logistic ?_
  rw [addf_apply, addf_apply, lin_read, pair_read]
  refine congrArg₂ (· + ·) (congrArg₂ (· + ·) rfl rfl) ?_
  refine (Cert.Lib.PlainDot.matmul_plain_zero_ix2 512 256 1 none _ _ b 0).trans (Finset.sum_congr rfl fun k _ => ?_)
  rw [truncf_apply, truncf_apply, maximumf_apply, broadcast_apply, load_whole2 arg7 harg7 x6]
  refine congrArg₂ (· * ·) (congrArg₂ max ?_ Ideal.ofBits_zero_f32) rfl
  refine (Cert.Lib.PlainDot.matmul_plain_zero_ix2 512 256 256 none _ _ b k).trans (Finset.sum_congr rfl fun k' _ => ?_)
  rw [hidden1_read, truncf_apply, load_whole2 arg6 harg6 x5]
  rfl

end Tail

end Cert.KernelIdeal.Body

end
-- ==== Proof.KernelArray.lean ====
/-
  The kernel program's result array: the batch score at all 16384 rows, over the arrays the region finds — the two
  tables joined column-wise and the four weight arrays transposed by the host operations before the region.
-/
import proofs.«403098_j70935679861554_1_alg».proof.Proof.Gen.KernelIdeal.Value
import proofs.«403098_j70935679861554_1_alg».proof.Proof.KernelBody
import Idealize.ShloMosaic.Lib.ValueLayout

set_option maxRecDepth 16384

noncomputable section

namespace Cert.KernelIdeal.Arr

open Cert.KernelIdeal Cert.KernelIdeal.Gen Idealize.ShloMosaic Idealize.ShloMosaic.TcCoe Idealize.SL.Sem Idealize.ShloMosaic.ValueIdx

/-- The eight windows' block indices at every grid point: the two row-blocked inputs and the output are at block (t, 0),
    the five whole-array inputs at block (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable [Cert.KernelIdeal.Facts]

/-- The kernel program's result on device c as a function of its eight argument arrays. -/
def GK (m : (ℓ : Loc nD τ sig) → Buf (Elt Ideal) ℓ) (c : Dev nD) : S16384x1.Idx → EReal :=
  Cert.FmMlp.rowsVal (R := 16384)
    (m ((c.tc : Thread nD τ).loc main_arg0)) (m ((c.tc : Thread nD τ).loc main_arg1))
    (concatenate S4823x129 1 [⟨S4823x128, m ((c.tc : Thread nD τ).loc main_arg3)⟩, ⟨S4823x1, m ((c.tc : Thread nD τ).loc main_arg2)⟩] Facts₀.concatenates_S4823x128_S4823x1_S4823x129_d1)
    (transpose S13x1 [1, 0] (m ((c.tc : Thread nD τ).loc main_arg4)) Facts₀.transposes_S1x13_S13x1_1_0)
    (transpose S3328x256 [1, 0] (m ((c.tc : Thread nD τ).loc main_arg5)) Facts₀.transposes_S256x3328_S3328x256_1_0)
    (transpose S256x256 [1, 0] (m ((c.tc : Thread nD τ).loc main_arg6)) Facts₀.transposes_S256x256_S256x256_1_0)
    (transpose S256x1 [1, 0] (m ((c.tc : Thread nD τ).loc main_arg7)) Facts₀.transposes_S1x256_S256x1_1_0)

/-! ## The joined table and the transposed weights, read at an index -/

/-- The joined table at a column below 128 is the wide table at that column. -/
private theorem joined_wide (e2 : S4823x128.Idx → EReal) (e1 : S4823x1.Idx → EReal)
    (h : Shape.Concatenates [S4823x128, S4823x1] S4823x129 1) (v : Fin 4823) (c : Fin 128) :
    concatenate S4823x129 1 [⟨S4823x128, e2⟩, ⟨S4823x1, e1⟩] h (ix2 v (Fin.castLE (by decide) c)) = e2 (ix2 v c) :=
  concatenate_pair_apply_left 1 e2 e1 h _ rfl (ix2 v c) fun b => match b with | ⟨0, _⟩ => rfl | ⟨1, _⟩ => rfl

/-- The joined table at column 128 is the narrow table's one column. -/
private theorem joined_narrow (e2 : S4823x128.Idx → EReal) (e1 : S4823x1.Idx → EReal)
    (h : Shape.Concatenates [S4823x128, S4823x1] S4823x129 1) (v : Fin 4823) :
    concatenate S4823x129 1 [⟨S4823x128, e2⟩, ⟨S4823x1, e1⟩] h (ix2 v ⟨128, by decide⟩) = e1 (ix2 v 0) :=
  concatenate_pair_apply_right 1 e2 e1 h _ rfl rfl (ix2 v 0)
    (fun b hb => match b, hb with | ⟨0, _⟩, _ => rfl | ⟨1, _⟩, hb => absurd rfl hb) rfl

/-- The indicator sum against the joined table, at a column below 128, is the wide table's named row. -/
private theorem gather_wide (w : BitVec 32) (h0 : 0 ≤ w.toInt) (h1 : w.toInt < 4823)
    (e2 : S4823x128.Idx → EReal) (e1 : S4823x1.Idx → EReal)
    (h : Shape.Concatenates [S4823x128, S4823x1] S4823x129 1) (c : Fin 128) :
    ∑ v : Fin 4823, Cert.FmMlp.hot w v
        * concatenate S4823x129 1 [⟨S4823x128, e2⟩, ⟨S4823x1, e1⟩] h (ix2 v (Fin.castLE (by decide) c))
      = e2 (ix2 (Cert.FmMlp.rowOf w) c) :=
  (Cert.FmMlp.hot_sum w h0 h1 _).trans (joined_wide e2 e1 h _ c)

/-- The indicator sum against the joined table, at column 128, is the narrow table's named row. -/
private theorem gather_narrow (w : BitVec 32) (h0 : 0 ≤ w.toInt) (h1 : w.toInt < 4823)
    (e2 : S4823x128.Idx → EReal) (e1 : S4823x1.Idx → EReal)
    (h : Shape.Concatenates [S4823x128, S4823x1] S4823x129 1) :
    ∑ v : Fin 4823, Cert.FmMlp.hot w v
        * concatenate S4823x129 1 [⟨S4823x128, e2⟩, ⟨S4823x1, e1⟩] h (ix2 v ⟨128, by decide⟩)
      = e1 (ix2 (Cert.FmMlp.rowOf w) 0) :=
  (Cert.FmMlp.hot_sum w h0 h1 _).trans (joined_narrow e2 e1 h _)

/-! ## The batch score of a block of rows is the batch score of the arrays at those rows -/

/-- The 512-row batch score of two row blocks at a row is the 16384-row batch score of the arrays at the array row the
    block row stands for: the score reads the dense features and the index words only at its own row, and the table and
    the weights whole. -/
private theorem rowsVal_rows (D : S16384x13.Idx → EReal) (W : S16384x26.Idx → BitVec 32)
    (tab : S4823x129.Idx → EReal) (fwT : S13x1.Idx → EReal) (w1T : S3328x256.Idx → EReal)
    (w2T : S256x256.Idx → EReal) (w3T : S256x1.Idx → EReal)
    (x0 : S512x13.Idx → EReal) (x1 : S512x26.Idx → BitVec 32) (y : S512x1.Idx) (i : S16384x1.Idx)
    (h0 : ∀ k : Fin 13, x0 (ix2 (y 0) k) = D (ix2 (i 0) k))
    (h1 : ∀ s : Fin 26, x1 (ix2 (y 0) s) = W (ix2 (i 0) s)) :
    Cert.FmMlp.rowsVal (R := 512) x0 x1 tab fwT w1T w2T w3T y
      = Cert.FmMlp.rowsVal (R := 16384) D W tab fwT w1T w2T w3T i := by
  unfold Cert.FmMlp.rowsVal
  simp only [h0, h1]

section Frame

variable (m : (ℓ : Loc nD τ sig) → Buf (Elt Ideal) ℓ)

/-! ## The arrays the region finds: the host operations' results -/

/-- The region finds in main_v0 the two tables joined column-wise. -/
private theorem V_v0 (c : Dev nD) : (V m c main_v0 : S4823x129.Idx → EReal)
    = concatenate S4823x129 1 [⟨S4823x128, m ((c.tc : Thread nD τ).loc main_arg3)⟩, ⟨S4823x1, m ((c.tc : Thread nD τ).loc main_arg2)⟩] Facts₀.concatenates_S4823x128_S4823x1_S4823x129_d1 := by
  dsimp only [Gen.V, Gen.hostOps0]; after_results

/-- The region finds in main_v1 the feature weights transposed. -/
private theorem V_v1 (c : Dev nD) : (V m c main_v1 : S13x1.Idx → EReal)
    = transpose S13x1 [1, 0] (m ((c.tc : Thread nD τ).loc main_arg4)) Facts₀.transposes_S1x13_S13x1_1_0 := by
  dsimp only [Gen.V, Gen.hostOps0]; after_results

/-- The region finds in main_v2 the first layer's weights transposed. -/
private theorem V_v2 (c : Dev nD) : (V m c main_v2 : S3328x256.Idx → EReal)
    = transpose S3328x256 [1, 0] (m ((c.tc : Thread nD τ).loc main_arg5)) Facts₀.transposes_S256x3328_S3328x256_1_0 := by
  dsimp only [Gen.V, Gen.hostOps0]; after_results

/-- The region finds in main_v3 the second layer's weights transposed. -/
private theorem V_v3 (c : Dev nD) : (V m c main_v3 : S256x256.Idx → EReal)
    = transpose S256x256 [1, 0] (m ((c.tc : Thread nD τ).loc main_arg6)) Facts₀.transposes_S256x256_S256x256_1_0 := by
  dsimp only [Gen.V, Gen.hostOps0]; after_results

/-- The region finds in main_v4 the last layer's weights transposed. -/
private theorem V_v4 (c : Dev nD) : (V m c main_v4 : S256x1.Idx → EReal)
    = transpose S256x1 [1, 0] (m ((c.tc : Thread nD τ).loc main_arg7)) Facts₀.transposes_S1x256_S256x1_1_0 := by
  dsimp only [Gen.V, Gen.hostOps0]; after_results

/-! ## The input blocks at a grid point -/

/-- Window 2's block at any point is its whole array: its block index is (0, 0) and the block is as large as the array. -/
private theorem iblk2 (c : Dev nD) (t : Fin cfg0.N) : (iblk m c 2 t : S4823x129.Idx → EReal) = V m c main_v0 := by
  have e := idx_facts t
  funext y
  show V m c main_v0 (((cfg0.win 2).blk t).view.emb y) = V m c main_v0 y
  congr 1
  funext a; apply Fin.ext
  match a with
  | ⟨0, _⟩ => show win0_2.index t (0 : Fin 2) * 4823 + 1 * (y 0).val = (y 0).val; omega
  | ⟨1, _⟩ => show win0_2.index t (1 : Fin 2) * 129 + 1 * (y 1).val = (y 1).val; omega

/-- Window 3's block at any point is its whole array: its block index is (0, 0) and the block is as large as the array. -/
private theorem iblk3 (c : Dev nD) (t : Fin cfg0.N) : (iblk m c 3 t : S13x1.Idx → EReal) = V m c main_v1 := by
  have e := idx_facts t
  funext y
  show V m c main_v1 (((cfg0.win 3).blk t).view.emb y) = V m c main_v1 y
  congr 1
  funext a; apply Fin.ext
  match a with
  | ⟨0, _⟩ => show win0_3.index t (0 : Fin 2) * 13 + 1 * (y 0).val = (y 0).val; omega
  | ⟨1, _⟩ => show win0_3.index t (1 : Fin 2) * 1 + 1 * (y 1).val = (y 1).val; omega

/-- Window 4's block at any point is its whole array: its block index is (0, 0) and the block is as large as the array. -/
private theorem iblk4 (c : Dev nD) (t : Fin cfg0.N) : (iblk m c 4 t : S3328x256.Idx → EReal) = V m c main_v2 := by
  have e := idx_facts t
  funext y
  show V m c main_v2 (((cfg0.win 4).blk t).view.emb y) = V m c main_v2 y
  congr 1
  funext a; apply Fin.ext
  match a with
  | ⟨0, _⟩ => show win0_4.index t (0 : Fin 2) * 3328 + 1 * (y 0).val = (y 0).val; omega
  | ⟨1, _⟩ => show win0_4.index t (1 : Fin 2) * 256 + 1 * (y 1).val = (y 1).val; omega

/-- Window 5's block at any point is its whole array: its block index is (0, 0) and the block is as large as the array. -/
private theorem iblk5 (c : Dev nD) (t : Fin cfg0.N) : (iblk m c 5 t : S256x256.Idx → EReal) = V m c main_v3 := by
  have e := idx_facts t
  funext y
  show V m c main_v3 (((cfg0.win 5).blk t).view.emb y) = V m c main_v3 y
  congr 1
  funext a; apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Window 6's block at any point is its whole array: its block index is (0, 0) and the block is as large as the array. -/
private theorem iblk6 (c : Dev nD) (t : Fin cfg0.N) : (iblk m c 6 t : S256x1.Idx → EReal) = V m c main_v4 := by
  have e := idx_facts t
  funext y
  show V m c main_v4 (((cfg0.win 6).blk t).view.emb y) = V m c main_v4 y
  congr 1
  funext a; apply Fin.ext
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 0's block at point t holds rows 512 t … 512 t + 511 of the dense features. -/
private theorem iblk0_apply (c : Dev nD) (t : Fin cfg0.N) (b : Fin 512) (k : Fin 13) (r : Fin 16384)
    (hr : r.val = 512 * t.val + b.val) :
    (iblk m c 0 t : S512x13.Idx → EReal) (ix2 b k) = m ((c.tc : Thread nD τ).loc main_arg0) (ix2 r k) := by
  have e := idx_facts t
  refine Eq.trans ?_ (congrFun (V_main_arg0 m c) (ix2 r k))
  show V m c main_arg0 (((cfg0.win 0).blk t).view.emb (ix2 b k)) = V m c main_arg0 (ix2 r k)
  congr 1
  funext a; apply Fin.ext
  match a with
  | ⟨0, _⟩ => show win0_0.index t (0 : Fin 2) * 512 + 1 * b.val = r.val; omega
  | ⟨1, _⟩ => show win0_0.index t (1 : Fin 2) * 13 + 1 * k.val = k.val; omega

/-- Window 1's block at point t holds rows 512 t … 512 t + 511 of the index words. -/
private theorem iblk1_apply (c : Dev nD) (t : Fin cfg0.N) (b : Fin 512) (s : Fin 26) (r : Fin 16384)
    (hr : r.val = 512 * t.val + b.val) :
    (iblk m c 1 t : S512x26.Idx → BitVec 32) (ix2 b s) = m ((c.tc : Thread nD τ).loc main_arg1) (ix2 r s) := by
  have e := idx_facts t
  refine Eq.trans ?_ (congrFun (V_main_arg1 m c) (ix2 r s))
  show V m c main_arg1 (((cfg0.win 1).blk t).view.emb (ix2 b s)) = V m c main_arg1 (ix2 r s)
  congr 1
  funext a; apply Fin.ext
  match a with
  | ⟨0, _⟩ => show win0_1.index t (0 : Fin 2) * 512 + 1 * b.val = r.val; omega
  | ⟨1, _⟩ => show win0_1.index t (1 : Fin 2) * 26 + 1 * s.val = s.val; omega

/-! ## What a point writes back, the cover, and the result array -/

/-- What point t writes back is block t of GK: the body's 512-row score of the point's blocks is the 16384-row score of
    the arrays at rows 512 t … 512 t + 511. -/
private theorem flushed_eq (c : Dev nD) (t : Fin cfg0.N) :
    (dats m 0 c).flushed 7 t = ((cfg0.win 7).blk t).view.read (Elt Ideal) (GK m c) := by
  rw [Value.flushed7_A, Body.body_eq, iblk2, iblk3, iblk4, iblk5, iblk6, V_v0, V_v1, V_v2, V_v3, V_v4]
  have e := idx_facts t
  funext y
  show Cert.FmMlp.rowsVal (R := 512) (iblk m c 0 t) (iblk m c 1 t) _ _ _ _ _ y
    = GK m c (((cfg0.win 7).blk t).view.emb y)
  unfold GK
  refine rowsVal_rows _ _ _ _ _ _ _ _ _ y _ (fun k => iblk0_apply m c t (y 0) k _ ?_) (fun s => iblk1_apply m c t (y 0) s _ ?_)
  all_goals
    show win0_7.index t (0 : Fin 2) * 512 + 1 * (y 0).val = 512 * t.val + (y 0).val
    omega

/-- An index of the result array is in point t's block iff each coordinate is in the block's range on its axis. -/
private theorem mem_blk (t : Fin cfg0.N) (i : S16384x1.Idx) :
    i ∈ ((cfg0.win 7).blk t).view.set
      ↔ ∀ a : Fin 2, win0_7.index t a * S512x1.size a ≤ (i a).val ∧ (i a).val < win0_7.index t a * S512x1.size a + S512x1.size a := by
  show i ∈ ((View.whole main_v5).slice (win0_7.rect t)).set ↔ _
  rw [View.set_slice_whole, Rect.mem_set_unit]
  exact Iff.rfl

/-- Row r of the result array is in the block of point r / 512, and every point writes back. -/
private theorem cover (i : S16384x1.Idx) :
    ∃ t : Fin cfg0.N, (cfg0.win 7).flush t = true ∧ i ∈ ((cfg0.win 7).blk t).view.set := by
  have hi0 : (i 0).val < 16384 := (i 0).isLt
  have hi1 : (i 1).val < 1 := (i 1).isLt
  have hN : cfg0.N = 32 := N_0
  obtain ⟨t, ht⟩ : ∃ t : Fin cfg0.N, t.val = (i 0).val / 512 := ⟨⟨(i 0).val / 512, by rw [hN]; omega⟩, rfl⟩
  have e := idx_facts t
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1 ≤ (i 1).val ∧ (i 1).val < win0_7.index t (1 : Fin 2) * 1 + 1; omega

/-- The result array after the run is GK: every point writes block t of GK and the blocks cover the array. -/
private theorem final (c : Dev nD) : (dats m 0 c).arrAt 7 cfg0.N = GK m c :=
  (dats m 0 c).arrAt_eq_of_cover 7 (GK m c) (fun t _ => flushed_eq m c t) cover

end Frame

/-- Every weakly fair execution of the kernel program ends with the result array at GK and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final m c), (h c).2⟩) (Value.run_blocks m ρ)

/-- For index words inside the table, the kernel program's result is the score G of the arguments themselves: the
    indicator sum against the joined table is the named row of the wide table (columns below 128) or of the narrow one
    (column 128), and the transposed weights read the arguments with the two coordinates exchanged. -/
theorem GK_eq_G (m : (ℓ : Loc nD τ sig) → Buf (Elt Ideal) ℓ) (c : Dev nD)
    (hidx : ∀ i : S16384x26.Idx, 0 ≤ (m ((c.tc : Thread nD τ).loc main_arg1) i).toInt ∧ (m ((c.tc : Thread nD τ).loc main_arg1) i).toInt < 4823) :
    GK m c = Cert.FmMlp.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  funext i
  unfold GK Cert.FmMlp.G Cert.FmMlp.rowsVal
  congr 1
  · funext k; exact transpose_ix2_apply _ _ k 0
  · funext t c'; exact gather_wide _ (hidx _).1 (hidx _).2 _ _ _ c'
  · funext t; exact gather_narrow _ (hidx _).1 (hidx _).2 _ _ _
  · funext q j; exact transpose_ix2_apply _ _ q j
  · funext k j; exact transpose_ix2_apply _ _ k j
  · funext k; exact transpose_ix2_apply _ _ k 0

end Cert.KernelIdeal.Arr

end
-- ==== Proof.RefValue.lean ====
/-
  The reference program's result, read operation by operation at an index: the score G of Proof/Spec.lean of its eight
  arguments, for index words that are not negative (the host's move of a negative word then does nothing, and its gather
  reads the table at the clamped word).
-/
import proofs.«403098_j70935679861554_1_alg».proof.Proof.Gen.ReferenceIdeal.Read
import proofs.«403098_j70935679861554_1_alg».proof.Proof.Spec
import proofs.«403098_j70935679861554_1_alg».proof.Proof.LibPlainDot

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## A gather of whole rows of a two-axis table, read at an index -/

/-- The dimension numbers of a gather that takes, for each position (n, t) of an index array [R, C, 1], the row of a
    table [N, W] that the index word names: the table's row axis collapsed and start-indexed, its column axis the
    result's offset axis 2. -/
private abbrev rowDims (N R C W : Nat)
    (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- Result element (n, t, e) of such a gather is the table at row "index word (n, t, 0) read signed and clamped into
    the table", column e. -/
private theorem gather_rows_apply {α : Type} {N R C W w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (j : (⟨3, ![R, C, W]⟩ : Shape).Idx) :
    Host.gather (rowDims N R C W wf) x idx j
      = x (ix2 ⟨min (idx (ix3 (j 0) (j 1) 0)).toInt.toNat (N - 1), by omega⟩ (j 2)) := by
  unfold Host.gather
  congr 1
  funext a
  refine Fin.ext ?_
  match a with
  | ⟨0, _⟩ =>
    show (rowDims N R C W wf).start j idx 0 + (rowDims N R C W wf).batchCoord j 0 + (rowDims N R C W wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C W wf).startIndexMap from List.mem_singleton.mpr rfl)]
    have hsi : (rowDims N R C W wf).siIdx j ⟨List.idxOf (0 : Fin 2) (rowDims N R C W wf).startIndexMap,
        List.idxOf_lt_length_iff.2 (List.mem_singleton.mpr rfl)⟩ = ix3 (j 0) (j 1) 0 := by
      funext b; refine Fin.ext ?_
      match b with
      | ⟨0, _⟩ => rfl
      | ⟨1, _⟩ => rfl
      | ⟨2, _⟩ => rfl
    rw [hsi]
    rfl
  | ⟨1, _⟩ =>
    show (rowDims N R C W wf).start j idx 1 + (rowDims N R C W wf).batchCoord j 1 + (rowDims N R C W wf).offCoord j 1 = (j 2).val
    rw [GatherDims.batchCoord_eq_zero _ _ _ List.not_mem_nil]
    unfold GatherDims.start
    rw [dif_neg (fun h : (1 : Fin 2) ∈ (rowDims N R C W wf).startIndexMap => absurd (show (1 : Fin 2) = 0 from List.mem_singleton.mp h) (by decide))]
    simp only [Nat.add_zero, Nat.zero_add]
    rfl

/-! ## Small facts -/

/-- A two-axis index with the given coordinates is `ix2` of them. -/
private theorem ix2_ext {n0 n1 : Nat} (j : (⟨2, ![n0, n1]⟩ : Shape).Idx) (a : Fin n0) (b : Fin n1)
    (h0 : j 0 = a) (h1 : j 1 = b) : j = ix2 a b := by
  subst h0 h1; exact eq_ix2 j

/-- The word 0x3F800000 is the number one. -/
private theorem one_word : Ideal.ofBits .f32 0x3F800000#32 = 1 := by
  simp [Ideal.ofBits, Ideal.ieee, -EReal.coe_mul]; norm_num

/-- The wide table's gather reads the row the index word names (clamped into the table). -/
private theorem gather_wide (x : (⟨S4823x128, .f32⟩ : BufTy).Contents (Elt Ideal))
    (idx : (⟨S16384x26x1, .i32⟩ : BufTy).Contents (Elt Ideal)) (j : S16384x26x128.Idx) :
    Host.gather gather_S4823x128_S16384x26x1_S16384x26x128_2_0_n_n_0_2_1128 x idx j
      = x (ix2 (Cert.FmMlp.rowOf (idx (ix3 (j 0) (j 1) 0))) (j 2)) :=
  gather_rows_apply (N := 4823) (R := 16384) (C := 26) (W := 128) (by decide)
    gather_S4823x128_S16384x26x1_S16384x26x128_2_0_n_n_0_2_1128_wf x idx j

/-- The narrow table's gather reads the row the index word names (clamped into the table). -/
private theorem gather_narrow (x : (⟨S4823x1, .f32⟩ : BufTy).Contents (Elt Ideal))
    (idx : (⟨S16384x26x1, .i32⟩ : BufTy).Contents (Elt Ideal)) (j : S16384x26x1.Idx) :
    Host.gather gather_S4823x1_S16384x26x1_S16384x26x1_2_0_n_n_0_2_11 x idx j
      = x (ix2 (Cert.FmMlp.rowOf (idx (ix3 (j 0) (j 1) 0))) (j 2)) :=
  gather_rows_apply (N := 4823) (R := 16384) (C := 26) (W := 1) (by decide)
    gather_S4823x1_S16384x26x1_S16384x26x1_2_0_n_n_0_2_11_wf x idx j

/-! ## The stages of the reference program, read at an index -/

section Stages

variable (x0 : (⟨S16384x13, .f32⟩ : BufTy).Contents (Elt Ideal)) (x1 : (⟨S16384x26, .i32⟩ : BufTy).Contents (Elt Ideal))
  (x2 : (⟨S4823x1, .f32⟩ : BufTy).Contents (Elt Ideal)) (x3 : (⟨S4823x128, .f32⟩ : BufTy).Contents (Elt Ideal))
  (x4 : (⟨S1x13, .f32⟩ : BufTy).Contents (Elt Ideal)) (x5 : (⟨S256x3328, .f32⟩ : BufTy).Contents (Elt Ideal))
  (x6 : (⟨S256x256, .f32⟩ : BufTy).Contents (Elt Ideal)) (x7 : (⟨S1x256, .f32⟩ : BufTy).Contents (Elt Ideal))

/-- The index array the narrow gather receives: on non-negative words, the index words themselves. -/
private theorem s5 (hidx : ∀ i : S16384x26.Idx, 0 ≤ (x1 i).toInt) (j : S16384x26x1.Idx) :
    Read.val_main_v5 (F := Ideal) x1 j = x1 (ix2 (j 0) (j 1)) := by
  rw [Read.val_main_v5_apply, Read.val_main_v4_apply, Read.val_main_v1_apply, Read.val_main_v0_apply,
    Read.val_main_c_apply, Read.val_main_v3_apply, Read.val_main_v2_apply, Read.val_main_c_0_apply,
    Cert.FmMlp.wrap_id _ (hidx _)]
  exact congrArg x1 (ix2_ext _ _ _ rfl rfl)

/-- The index array the wide gather receives: on non-negative words, the index words themselves. -/
private theorem s16 (hidx : ∀ i : S16384x26.Idx, 0 ≤ (x1 i).toInt) (j : S16384x26x1.Idx) :
    Read.val_main_v16 (F := Ideal) x1 j = x1 (ix2 (j 0) (j 1)) := by
  rw [Read.val_main_v16_apply, Read.val_main_v15_apply, Read.val_main_v12_apply, Read.val_main_v11_apply,
    Read.val_main_c_1_apply, Read.val_main_v14_apply, Read.val_main_v13_apply, Read.val_main_c_2_apply,
    Cert.FmMlp.wrap_id _ (hidx _)]
  exact congrArg x1 (ix2_ext _ _ _ rfl rfl)

/-- The narrow gather: entry (n, t) is the narrow table at the row word (n, t) names. -/
private theorem s6 (hidx : ∀ i : S16384x26.Idx, 0 ≤ (x1 i).toInt) (j : S16384x26x1.Idx) :
    Read.val_main_v6 (F := Ideal) x1 x2 j = x2 (ix2 (Cert.FmMlp.rowOf (x1 (ix2 (j 0) (j 1)))) 0) := by
  unfold Read.val_main_v6
  refine (gather_narrow _ _ _).trans ?_
  rw [s5 x1 hidx]
  exact congrArg x2 (congrArg (ix2 _) (Subsingleton.elim _ _))

/-- The wide gather: entry (n, t, e) is the wide table at the row word (n, t) names, column e. -/
private theorem s17 (hidx : ∀ i : S16384x26.Idx, 0 ≤ (x1 i).toInt) (j : S16384x26x128.Idx) :
    Read.val_main_v17 (F := Ideal) x1 x3 j = x3 (ix2 (Cert.FmMlp.rowOf (x1 (ix2 (j 0) (j 1)))) (j 2)) := by
  unfold Read.val_main_v17
  refine (gather_wide _ _ _).trans ?_
  rw [s16 x1 hidx]

/-- The sum of the 26 narrow-table entries of batch row n. -/
private theorem s9 (hidx : ∀ i : S16384x26.Idx, 0 ≤ (x1 i).toInt) (n : Fin 16384) :
    Read.val_main_v9 (F := Ideal) x1 x2 (ix2 n (0 : Fin 1))
      = ∑ t : Fin 26, x2 (ix2 (Cert.FmMlp.rowOf (x1 (ix2 n t))) 0) := by
  rw [Read.val_main_v9_apply, Read.val_main_cst_apply, Ideal.ofBits_def, Ideal.ofBits_zero_f32, zero_add]
  refine Finset.sum_congr rfl fun t _ => ?_
  rw [s6 x1 x2 hidx]
  rfl

/-- The dense features of batch row n against the feature weights. -/
private theorem s8 (n : Fin 16384) :
    Read.val_main_v8 (F := Ideal) x0 x4 (ix2 n (0 : Fin 1)) = ∑ k : Fin 13, x0 (ix2 n k) * x4 (ix2 0 k) := by
  rw [Read.val_main_v8_apply]
  refine Finset.sum_congr rfl fun k _ => ?_
  rw [Read.val_main_v7_apply]
  exact congrArg₂ (· * ·) (congrArg x0 (ix2_ext _ _ _ rfl rfl)) (congrArg x4 (ix2_ext _ _ _ rfl rfl))

/-- Column c of the sum of batch row (i 0)'s 26 gathered wide rows. -/
private theorem s18 (hidx : ∀ i : S16384x26.Idx, 0 ≤ (x1 i).toInt) (i : S16384x128.Idx) :
    Read.val_main_v18 (F := Ideal) x1 x3 i
      = ∑ t : Fin 26, x3 (ix2 (Cert.FmMlp.rowOf (x1 (ix2 (i 0) t))) (i 1)) := by
  rw [Read.val_main_v18_apply, Read.val_main_cst_3_apply, Ideal.ofBits_def, Ideal.ofBits_zero_f32, zero_add]
  refine Finset.sum_congr rfl fun t _ => ?_
  rw [s17 x1 x3 hidx]
  rfl

/-- Column c of the sum of the squares of batch row (i 0)'s 26 gathered wide rows. -/
private theorem s20 (hidx : ∀ i : S16384x26.Idx, 0 ≤ (x1 i).toInt) (i : S16384x128.Idx) :
    Read.val_main_v20 (F := Ideal) x1 x3 i
      = ∑ t : Fin 26, x3 (ix2 (Cert.FmMlp.rowOf (x1 (ix2 (i 0) t))) (i 1))
          * x3 (ix2 (Cert.FmMlp.rowOf (x1 (ix2 (i 0) t))) (i 1)) := by
  rw [Read.val_main_v20_apply, Read.val_main_cst_4_apply, Ideal.ofBits_def, Ideal.ofBits_zero_f32, zero_add]
  refine Finset.sum_congr rfl fun t _ => ?_
  rw [Read.val_main_v19_apply, Ideal.mulf_def, s17 x1 x3 hidx]
  rfl

/-- The pairwise part of batch row n before the half: over the 128 columns, square of the sum minus sum of squares. -/
private theorem s24 (hidx : ∀ i : S16384x26.Idx, 0 ≤ (x1 i).toInt) (n : Fin 16384) :
    Read.val_main_v24 (F := Ideal) x1 x3 (ix2 n (0 : Fin 1))
      = ∑ c : Fin 128, ((∑ t : Fin 26, x3 (ix2 (Cert.FmMlp.rowOf (x1 (ix2 n t))) c))
            * (∑ t : Fin 26, x3 (ix2 (Cert.FmMlp.rowOf (x1 (ix2 n t))) c))
          - ∑ t : Fin 26, x3 (ix2 (Cert.FmMlp.rowOf (x1 (ix2 n t))) c) * x3 (ix2 (Cert.FmMlp.rowOf (x1 (ix2 n t))) c)) := by
  rw [Read.val_main_v24_apply, Read.val_main_v23_apply, Read.val_main_cst_5_apply, Ideal.ofBits_def,
    Ideal.ofBits_zero_f32, zero_add]
  refine Finset.sum_congr rfl fun c _ => ?_
  rw [Read.val_main_v22_apply, Ideal.subf_def, Read.val_main_v21_apply, Ideal.mulf_def, s18 x1 x3 hidx, s20 x1 x3 hidx]
  rfl

/-- The flattened gathered rows: entry (n, q) is feature q / 128's wide row at column q % 128. -/
private theorem s27 (hidx : ∀ i : S16384x26.Idx, 0 ≤ (x1 i).toInt) (i : S16384x3328.Idx) :
    Read.val_main_v27 (F := Ideal) x1 x3 i
      = x3 (ix2 (Cert.FmMlp.rowOf (x1 (ix2 (i 0)
            ⟨(i 1).val / 128, by have h1 : (i 1).val < 3328 := (i 1).isLt; omega⟩)))
          ⟨(i 1).val % 128, Nat.mod_lt _ (by decide)⟩) := by
  rw [Read.val_main_v27_apply, s17 x1 x3 hidx]
  have h0 : (Read.idx_main_v27 i) 0 = i 0 := Fin.ext (by
    have h1 : (i 1).val < 3328 := (i 1).isLt
    show ((i 0).val * 3328 + (i 1).val) / 3328 = (i 0).val
    omega)
  have h1 : (Read.idx_main_v27 i) 1 = ⟨(i 1).val / 128, by
      have h1 : (i 1).val < 3328 := (i 1).isLt
      show (i 1).val / 128 < 26
      omega⟩ :=
    Fin.ext (by
      have h1 : (i 1).val < 3328 := (i 1).isLt
      show ((i 0).val * 3328 + (i 1).val) / 128 % 26 = (i 1).val / 128
      omega)
  have h2 : (Read.idx_main_v27 i) 2 = ⟨(i 1).val % 128, Nat.mod_lt _ (by decide)⟩ := Fin.ext (by
    show ((i 0).val * 3328 + (i 1).val) % 128 = (i 1).val % 128
    omega)
  rw [h0, h1, h2]
  rfl

/-- The first layer before its threshold: the flattened rows of batch row (i 0) against weight row (i 1). -/
private theorem s29 (hidx : ∀ i : S16384x26.Idx, 0 ≤ (x1 i).toInt) (i : S16384x256.Idx) :
    Read.val_main_v29 (F := Ideal) x1 x3 x5 i
      = ∑ q : Fin 3328, x3 (ix2 (Cert.FmMlp.rowOf (x1 (ix2 (i 0)
            ⟨q.val / 128, by have := q.isLt; omega⟩))) ⟨q.val % 128, Nat.mod_lt _ (by decide)⟩) * x5 (ix2 (i 1) q) := by
  rw [Read.val_main_v29_apply]
  refine Finset.sum_congr rfl fun q _ => ?_
  rw [s27 x1 x3 hidx, Read.val_main_v28_apply]
  exact congrArg₂ (· * ·) rfl (congrArg x5 (ix2_ext _ _ _ rfl rfl))

/-- The first layer. -/
private theorem s30 (hidx : ∀ i : S16384x26.Idx, 0 ≤ (x1 i).toInt) (i : S16384x256.Idx) :
    Read.val_main_v30 (F := Ideal) x1 x3 x5 i
      = max (∑ q : Fin 3328, x3 (ix2 (Cert.FmMlp.rowOf (x1 (ix2 (i 0)
            ⟨q.val / 128, by have := q.isLt; omega⟩))) ⟨q.val % 128, Nat.mod_lt _ (by decide)⟩) * x5 (ix2 (i 1) q)) 0 := by
  rw [Read.val_main_v30_apply, Ideal.maximumf_def, Read.val_main_call0_v0_apply, Read.val_main_call0_cst_apply,
    Ideal.ofBits_def, Ideal.ofBits_zero_f32, s29 x1 x3 x5 hidx]

/-- The second layer before its threshold. -/
private theorem s32 (hidx : ∀ i : S16384x26.Idx, 0 ≤ (x1 i).toInt) (i : S16384x256.Idx) :
    Read.val_main_v32 (F := Ideal) x1 x3 x5 x6 i
      = ∑ k' : Fin 256, max (∑ q : Fin 3328, x3 (ix2 (Cert.FmMlp.rowOf (x1 (ix2 (i 0)
            ⟨q.val / 128, by have := q.isLt; omega⟩))) ⟨q.val % 128, Nat.mod_lt _ (by decide)⟩) * x5 (ix2 k' q)) 0
          * x6 (ix2 (i 1) k') := by
  rw [Read.val_main_v32_apply]
  refine Finset.sum_congr rfl fun k' _ => ?_
  rw [s30 x1 x3 x5 hidx, Read.val_main_v31_apply]
  exact congrArg₂ (· * ·) rfl (congrArg x6 (ix2_ext _ _ _ rfl rfl))

/-- The second layer. -/
private theorem s33 (hidx : ∀ i : S16384x26.Idx, 0 ≤ (x1 i).toInt) (i : S16384x256.Idx) :
    Read.val_main_v33 (F := Ideal) x1 x3 x5 x6 i
      = max (∑ k' : Fin 256, max (∑ q : Fin 3328, x3 (ix2 (Cert.FmMlp.rowOf (x1 (ix2 (i 0)
            ⟨q.val / 128, by have := q.isLt; omega⟩))) ⟨q.val % 128, Nat.mod_lt _ (by decide)⟩) * x5 (ix2 k' q)) 0
          * x6 (ix2 (i 1) k')) 0 := by
  rw [Read.val_main_v33_apply, Ideal.maximumf_def, Read.val_main_call1_v0_apply, Read.val_main_call1_cst_apply,
    Ideal.ofBits_def, Ideal.ofBits_zero_f32, s32 x1 x3 x5 x6 hidx]

/-- The deep part of batch row n. -/
private theorem s35 (hidx : ∀ i : S16384x26.Idx, 0 ≤ (x1 i).toInt) (n : Fin 16384) :
    Read.val_main_v35 (F := Ideal) x1 x3 x5 x6 x7 (ix2 n (0 : Fin 1))
      = ∑ k : Fin 256, max (∑ k' : Fin 256, max (∑ q : Fin 3328, x3 (ix2 (Cert.FmMlp.rowOf (x1 (ix2 n
            ⟨q.val / 128, by have := q.isLt; omega⟩))) ⟨q.val % 128, Nat.mod_lt _ (by decide)⟩) * x5 (ix2 k' q)) 0
          * x6 (ix2 k k')) 0 * x7 (ix2 0 k) := by
  rw [Read.val_main_v35_apply]
  refine Finset.sum_congr rfl fun k _ => ?_
  rw [s33 x1 x3 x5 x6 hidx, Read.val_main_v34_apply]
  exact congrArg₂ (· * ·) rfl (congrArg x7 (ix2_ext _ _ _ rfl rfl))

/-- The reference's last stage at batch row n is the row's score. -/
private theorem s43 (hidx : ∀ i : S16384x26.Idx, 0 ≤ (x1 i).toInt) (n : Fin 16384) :
    Read.val_main_v43 (F := Ideal) x0 x1 x2 x3 x4 x5 x6 x7 (ix2 n (0 : Fin 1))
      = Cert.FmMlp.rowVal (fun k => x0 (ix2 n k)) (fun k => x4 (ix2 0 k))
          (fun t c => x3 (ix2 (Cert.FmMlp.rowOf (x1 (ix2 n t))) c))
          (fun t => x2 (ix2 (Cert.FmMlp.rowOf (x1 (ix2 n t))) 0))
          (fun q j => x5 (ix2 j q)) (fun k j => x6 (ix2 j k)) (fun k => x7 (ix2 0 k)) := by
  rw [Read.val_main_v43_apply, Read.val_main_v42_apply, Read.val_main_cst_8_apply, Read.val_main_v41_apply,
    Read.val_main_v40_apply, Read.val_main_cst_7_apply, Read.val_main_v39_apply, Read.val_main_v38_apply,
    Read.val_main_v37_apply, Read.val_main_v36_apply, Read.val_main_v10_apply, Read.val_main_v26_apply,
    Read.val_main_v25_apply, Read.val_main_cst_6_apply,
    s8 x0 x4, s9 x1 x2 hidx, s24 x1 x3 hidx, s35 x1 x3 x5 x6 x7 hidx]
  simp only [Ideal.hostDivf_def, Ideal.addf_def, Ideal.mulf_def, Ideal.hostUnary_exp_def, Ideal.hostNegf_def,
    Ideal.negf_def, Ideal.ofBits_def, one_word]
  unfold Cert.FmMlp.rowVal Ideal.logistic Cert.FmMlp.half
  exact rfl

end Stages

variable [Cert.ReferenceIdeal.Facts]

/-- The reference run's result term is the score G of the arguments. -/
theorem ref_eq (m : (ℓ : Loc nD τ sig) → Buf (Elt Ideal) ℓ) (c : Dev nD)
    (hidx : ∀ i : S16384x26.Idx, 0 ≤ (m ((c.tc : Thread nD τ).loc main_arg1) i).toInt) :
    Cert.ReferenceIdeal.Value.res_out0 (F := Ideal) m c
      = Cert.FmMlp.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  funext i
  obtain ⟨n, z, rfl⟩ : ∃ (n : Fin 16384) (z : Fin 1), i = ix2 n z := ⟨i 0, i 1, eq_ix2 i⟩
  obtain rfl : z = 0 := Subsingleton.elim _ _
  show Cert.ReferenceIdeal.Value.res_main_v43 (F := Ideal) m c (ix2 n (0 : Fin 1)) = _
  rw [Read.val_main_v43_eq]
  exact s43 _ _ _ _ _ _ _ _ hidx n

end Cert.ReferenceIdeal.RefValue

end
-- ==== Proof.PreRange.lean ====
/-
  What the precondition says of the index words: every one of them is inside the table, 0 ≤ word < 4823 read as a signed
  integer. (The precondition is a conjunction of all-reductions; the last two are the comparisons of every index word
  with 0 and with 4823.)
-/
import proofs.«403098_j70935679861554_1_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Range

open Cert.Pre_finite_inputs Idealize.ShloMosaic Idealize.ShloMosaic.ValueIdx

variable {F : FTy → Type} [FloatOps F] [Cert.Pre_finite_inputs.Facts]

/-- The scalar shape has exactly one index. -/
private instance subsingleton_scalarIdx : Subsingleton S_.Idx := ⟨fun a b => funext fun d => d.elim0⟩

/-- A scalar constant broadcast over the index array reads that constant at every position. -/
private theorem bcast_const_apply (c : BitVec 32) (i : S16384x26.Idx) :
    broadcastInDim S16384x26 ![] Facts.bcast_S_S16384x26 (constantI S_ 32 c) i = c := rfl

/-- The last stretch of the precondition, read at one element. Its value is (v33 and all (a1 ≥ 0)) and all (a1 < 4823);
    where that is 1, both all-reductions are 1, so the word at i passes both signed comparisons. Whatever the earlier
    conjuncts v33 are plays no part. -/
private theorem part2_range (a1 : IVec S16384x26 32) (v33 : IVec S_ 1) (j : S_.Idx)
    (h : fn_part2 (F := F) a1 v33 j = 1#1) (i : S16384x26.Idx) :
    0 ≤ (a1 i).toInt ∧ (a1 i).toInt < 4823 := by
  dsimp only [fn_part2] at h
  -- the outer conjunction gives the upper comparison's reduction; the one inside it the lower comparison's
  obtain ⟨h37, h40⟩ := IntOp.andi_eq_one.1 h
  obtain ⟨-, h36⟩ := IntOp.andi_eq_one.1 h37
  -- a reduction by conjunction over all axes that is 1 had a 1 at every element
  have hge := Host.reduce_andi_all _ _ _ _ j h36 i
  have hlt := Host.reduce_andi_all _ _ _ _ j h40 i
  -- at an element the comparison is the signed comparison of the word with the broadcast constant
  have hge' : (0#32 : BitVec 32).toInt ≤ (a1 i).toInt := by
    have := IntOp.cmpi_sge.1 hge
    rwa [bcast_const_apply] at this
  have hlt' : (a1 i).toInt < (4823#32 : BitVec 32).toInt := by
    have := IntOp.cmpi_slt.1 hlt
    rwa [bcast_const_apply] at this
  have e0 : (0#32 : BitVec 32).toInt = 0 := by decide
  have e1 : (4823#32 : BitVec 32).toInt = 4823 := by decide
  rw [e0] at hge'
  rw [e1] at hlt'
  exact ⟨hge', hlt'⟩

/-- Where the precondition holds, every index word is inside the table. -/
theorem idx_range (a0 : FVec F S16384x13 .f32) (a1 : IVec S16384x26 32) (a2 : FVec F S4823x1 .f32) (a3 : FVec F S4823x128 .f32)
    (a4 : FVec F S1x13 .f32) (a5 : FVec F S256x3328 .f32) (a6 : FVec F S256x256 .f32) (a7 : FVec F S1x256 .f32)
    (h : Cert.Pre_finite_inputs.fn (F := F) a0 a1 a2 a3 a4 a5 a6 a7 = fun _ => 1#1) (i : S16384x26.Idx) :
    0 ≤ (a1 i).toInt ∧ (a1 i).toInt < 4823 := by
  -- the precondition at its one index; its chain of operations ends in the last stretch applied to the index words
  have h0 : Cert.Pre_finite_inputs.fn (F := F) a0 a1 a2 a3 a4 a5 a6 a7 ix0 = 1#1 := congrFun h ix0
  unfold Cert.Pre_finite_inputs.fn fn_part1 at h0
  exact part2_range (F := F) a1 _ ix0 h0 i

end Cert.Pre_finite_inputs.Range

end
-- ==== Proof.lean ====
/-
  The five claims for the factorization-machine-plus-MLP scoring kernel against its jnp reference.

  The three frames: the two kernel programs' by the frame certificate of the pipelined region, the reference's by its run
  with the result dropped. The idealization rewrote nothing, so its claim is trivial.

  The value claim. Under the precondition every index word names a row of the table (Proof/PreRange.lean). The kernel
  program ends with the result array at the batch score whose gathered rows are indicator sums against the joined table
  (Proof/KernelBody.lean for one block, Proof/KernelArray.lean for the array); for in-table index words that is the score G
  of the arguments. The reference's run ends at G as well (Proof/RefValue.lean): its gather reads the table at the clamped
  word, and its move of negative words does nothing to a non-negative one. G is Proof/Spec.lean's.
-/
import proofs.«403098_j70935679861554_1_alg».proof.Defs
import proofs.«403098_j70935679861554_1_alg».proof.Proof.Gen.Kernel
import proofs.«403098_j70935679861554_1_alg».proof.Proof.Gen.Kernel.Frame
import proofs.«403098_j70935679861554_1_alg».proof.Proof.Gen.KernelIdeal
import proofs.«403098_j70935679861554_1_alg».proof.Proof.Gen.KernelIdeal.Frame
import proofs.«403098_j70935679861554_1_alg».proof.Proof.Gen.ReferenceIdeal
import proofs.«403098_j70935679861554_1_alg».proof.Proof.Gen.ReferenceIdeal.Run
import proofs.«403098_j70935679861554_1_alg».proof.Proof.Gen.Pre_finite_inputs
import proofs.«403098_j70935679861554_1_alg».proof.Proof.KernelArray
import proofs.«403098_j70935679861554_1_alg».proof.Proof.RefValue
import proofs.«403098_j70935679861554_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the score G of the arguments: the kernel program because in-table index words make its
    indicator sums row reads, the reference because its wrap and clamp do nothing to such words. -/
theorem algebraic : Cert.algebraic_KernelIdeal_ReferenceIdeal := by
  intro m ρ m' ρ' hpre hagree
  have hidx : ∀ (c : Dev Cert.KernelIdeal.nD) (i : Cert.KernelIdeal.S16384x26.Idx),
      0 ≤ (m ((c.tc : Thread Cert.KernelIdeal.nD Cert.KernelIdeal.τ).loc Cert.KernelIdeal.main_arg1) i).toInt ∧ (m ((c.tc : Thread Cert.KernelIdeal.nD Cert.KernelIdeal.τ).loc Cert.KernelIdeal.main_arg1) i).toInt < 4823 :=
    fun c i => Cert.Pre_finite_inputs.Range.idx_range (F := Ideal) _ _ _ _ _ _ _ _ (hpre c) i
  refine ⟨fun c => Cert.KernelIdeal.Arr.GK m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  have hneg : ∀ i : Cert.ReferenceIdeal.S16384x26.Idx, 0 ≤ (m' ((c.tc : Thread Cert.ReferenceIdeal.nD Cert.ReferenceIdeal.τ).loc Cert.ReferenceIdeal.main_arg1) i).toInt := by
    intro i; rw [(hagree c).2.1]; exact (hidx c i).1
  show _ = Cert.KernelIdeal.Arr.GK m c
  rw [Cert.KernelIdeal.Arr.GK_eq_G m c (hidx c)]
  refine (Cert.ReferenceIdeal.RefValue.ref_eq m' c hneg).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
